-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x784 : Shape := ⟨2, ![1024, 784]⟩
abbrev S784x1024 : Shape := ⟨2, ![784, 1024]⟩
abbrev S1024 : Shape := ⟨1, ![1024]⟩
abbrev S1024x1024 : Shape := ⟨2, ![1024, 1024]⟩
abbrev S1024x10 : Shape := ⟨2, ![1024, 10]⟩
abbrev S10 : Shape := ⟨1, ![10]⟩
abbrev S32x784x1024 : Shape := ⟨3, ![32, 784, 1024]⟩
abbrev S32x1x1024 : Shape := ⟨3, ![32, 1, 1024]⟩
abbrev S32x1024x1024 : Shape := ⟨3, ![32, 1024, 1024]⟩
abbrev S32x1024x10 : Shape := ⟨3, ![32, 1024, 10]⟩
abbrev S32x1x10 : Shape := ⟨3, ![32, 1, 10]⟩
abbrev S_ : Shape := ⟨0, ![]⟩

class Facts : Prop where
  bcast_S_S1024x784 : S_.BroadcastsInDim S1024x784 (![] : Fin 0 → Fin S1024x784.rank)
  reducesTo_S1024x784_S_d0_1 : S1024x784.ReducesTo [0, 1] S_
  h_S_ : 0 < S_.numel
  bcast_S_S784x1024 : S_.BroadcastsInDim S784x1024 (![] : Fin 0 → Fin S784x1024.rank)
  reducesTo_S784x1024_S_d0_1 : S784x1024.ReducesTo [0, 1] S_
  bcast_S_S1024 : S_.BroadcastsInDim S1024 (![] : Fin 0 → Fin S1024.rank)
  reducesTo_S1024_S_d0 : S1024.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024x10 : S_.BroadcastsInDim S1024x10 (![] : Fin 0 → Fin S1024x10.rank)
  reducesTo_S1024x10_S_d0_1 : S1024x10.ReducesTo [0, 1] S_
  bcast_S_S10 : S_.BroadcastsInDim S10 (![] : Fin 0 → Fin S10.rank)
  reducesTo_S10_S_d0 : S10.ReducesTo [0] S_
  bcast_S_S32x784x1024 : S_.BroadcastsInDim S32x784x1024 (![] : Fin 0 → Fin S32x784x1024.rank)
  reducesTo_S32x784x1024_S_d0_1_2 : S32x784x1024.ReducesTo [0, 1, 2] S_
  bcast_S_S32x1x1024 : S_.BroadcastsInDim S32x1x1024 (![] : Fin 0 → Fin S32x1x1024.rank)
  reducesTo_S32x1x1024_S_d0_1_2 : S32x1x1024.ReducesTo [0, 1, 2] S_
  bcast_S_S32x1024x1024 : S_.BroadcastsInDim S32x1024x1024 (![] : Fin 0 → Fin S32x1024x1024.rank)
  reducesTo_S32x1024x1024_S_d0_1_2 : S32x1024x1024.ReducesTo [0, 1, 2] S_
  bcast_S_S32x1024x10 : S_.BroadcastsInDim S32x1024x10 (![] : Fin 0 → Fin S32x1024x10.rank)
  reducesTo_S32x1024x10_S_d0_1_2 : S32x1024x10.ReducesTo [0, 1, 2] S_
  bcast_S_S32x1x10 : S_.BroadcastsInDim S32x1x10 (![] : Fin 0 → Fin S32x1x10.rank)
  reducesTo_S32x1x10_S_d0_1_2 : S32x1x10.ReducesTo [0, 1, 2] S_

variable [Facts]

def fn_part5 {F : FTy → Type} [FloatOps F] (main_arg18 : FVec F S32x1x10 .f32) (main_v83 : IVec S_ 1) (main_v84 : FVec F S32x1024x10 .f32) (main_cst_32 : FVec F S_ .f32) : IVec S_ 1 :=
  let main_v85 : FVec F S32x1024x10 .f32 := broadcastInDim S32x1024x10 ![] bcast_S_S32x1024x10 main_cst_32
  let main_v86 : IVec S32x1024x10 1 := cmpf .olt main_v84 main_v85
  let main_c_33 : IVec S_ 1 := constantI S_ 1 1#1
  let main_v87 : IVec S_ 1 := (fun x v => Host.reduce IntOp.andi x v reducesTo_S32x1024x10_S_d0_1_2 h_S_) main_v86 main_c_33
  let main_v88 : IVec S_ 1 := andi main_v83 main_v87
  let main_v89 : FVec F S32x1x10 .f32 := Host.absf main_arg18
  let main_cst_34 : FVec F S_ .f32 := constant S_ .f32 0x7F800000#32
  let main_v90 : FVec F S32x1x10 .f32 := broadcastInDim S32x1x10 ![] bcast_S_S32x1x10 main_cst_34
  let main_v91 : IVec S32x1x10 1 := cmpf .olt main_v89 main_v90
  let main_c_35 : IVec S_ 1 := constantI S_ 1 1#1
  let main_v92 : IVec S_ 1 := (fun x v => Host.reduce IntOp.andi x v reducesTo_S32x1x10_S_d0_1_2 h_S_) main_v91 main_c_35
  let main_v93 : IVec S_ 1 := andi main_v88 main_v92
  main_v93

def fn_part4 {F : FTy → Type} [FloatOps F] (main_arg14 : FVec F S32x1x1024 .f32) (main_arg15 : FVec F S32x1024x1024 .f32) (main_arg16 : FVec F S32x1x1024 .f32) (main_arg17 : FVec F S32x1024x10 .f32) (main_arg18 : FVec F S32x1x10 .f32) (main_v63 : IVec S_ 1) (main_v67 : IVec S_ 1) : IVec S_ 1 :=
  let main_v68 : IVec S_ 1 := andi main_v63 main_v67
  let main_v69 : FVec F S32x1x1024 .f32 := Host.absf main_arg14
  let main_cst_26 : FVec F S_ .f32 := constant S_ .f32 0x7F800000#32
  let main_v70 : FVec F S32x1x1024 .f32 := broadcastInDim S32x1x1024 ![] bcast_S_S32x1x1024 main_cst_26
  let main_v71 : IVec S32x1x1024 1 := cmpf .olt main_v69 main_v70
  let main_c_27 : IVec S_ 1 := constantI S_ 1 1#1
  let main_v72 : IVec S_ 1 := (fun x v => Host.reduce IntOp.andi x v reducesTo_S32x1x1024_S_d0_1_2 h_S_) main_v71 main_c_27
  let main_v73 : IVec S_ 1 := andi main_v68 main_v72
  let main_v74 : FVec F S32x1024x1024 .f32 := Host.absf main_arg15
  let main_cst_28 : FVec F S_ .f32 := constant S_ .f32 0x7F800000#32
  let main_v75 : FVec F S32x1024x1024 .f32 := broadcastInDim S32x1024x1024 ![] bcast_S_S32x1024x1024 main_cst_28
  let main_v76 : IVec S32x1024x1024 1 := cmpf .olt main_v74 main_v75
  let main_c_29 : IVec S_ 1 := constantI S_ 1 1#1
  let main_v77 : IVec S_ 1 := (fun x v => Host.reduce IntOp.andi x v reducesTo_S32x1024x1024_S_d0_1_2 h_S_) main_v76 main_c_29
  let main_v78 : IVec S_ 1 := andi main_v73 main_v77
  let main_v79 : FVec F S32x1x1024 .f32 := Host.absf main_arg16
  let main_cst_30 : FVec F S_ .f32 := constant S_ .f32 0x7F800000#32
  let main_v80 : FVec F S32x1x1024 .f32 := broadcastInDim S32x1x1024 ![] bcast_S_S32x1x1024 main_cst_30
  let main_v81 : IVec S32x1x1024 1 := cmpf .olt main_v79 main_v80
  let main_c_31 : IVec S_ 1 := constantI S_ 1 1#1
  let main_v82 : IVec S_ 1 := (fun x v => Host.reduce IntOp.andi x v reducesTo_S32x1x1024_S_d0_1_2 h_S_) main_v81 main_c_31
  let main_v83 : IVec S_ 1 := andi main_v78 main_v82
  let main_v84 : FVec F S32x1024x10 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S10 .f32) (main_arg12 : FVec F S10 .f32) (main_arg13 : FVec F S32x784x1024 .f32) (main_arg14 : FVec F S32x1x1024 .f32) (main_arg15 : FVec F S32x1024x1024 .f32) (main_arg16 : FVec F S32x1x1024 .f32) (main_arg17 : FVec F S32x1024x10 .f32) (main_arg18 : FVec F S32x1x10 .f32) (main_v48 : IVec S_ 1) (main_v49 : FVec F S1024x10 .f32) (main_v50 : FVec F S1024x10 .f32) : IVec S_ 1 :=
  let main_v51 : IVec S1024x10 1 := cmpf .olt main_v49 main_v50
  let main_c_19 : IVec S_ 1 := constantI S_ 1 1#1
  let main_v52 : IVec S_ 1 := (fun x v => Host.reduce IntOp.andi x v reducesTo_S1024x10_S_d0_1 h_S_) main_v51 main_c_19
  let main_v53 : IVec S_ 1 := andi main_v48 main_v52
  let main_v54 : FVec F S10 .f32 := Host.absf main_arg11
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  let main_v59 : FVec F S10 .f32 := Host.absf main_arg12
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  let main_v64 : FVec F S32x784x1024 .f32 := Host.absf main_arg13
  let main_cst_24 : FVec F S_ .f32 := constant S_ .f32 0x7F800000#32
  let main_v65 : FVec F S32x784x1024 .f32 := broadcastInDim S32x784x1024 ![] bcast_S_S32x784x1024 main_cst_24
  let main_v66 : IVec S32x784x1024 1 := cmpf .olt main_v64 main_v65
  let main_c_25 : IVec S_ 1 := constantI S_ 1 1#1
  let main_v67 : IVec S_ 1 := (fun x v => Host.reduce IntOp.andi x v reducesTo_S32x784x1024_S_d0_1_2 h_S_) main_v66 main_c_25
  fn_part4 (F := F) main_arg14 main_arg15 main_arg16 main_arg17 main_arg18 main_v63 main_v67

def fn_part2 {F : FTy → Type} [FloatOps F] (main_arg7 : FVec F S1024 .f32) (main_arg8 : FVec F S1024 .f32) (main_arg9 : FVec F S1024x10 .f32) (main_arg10 : FVec F S1024x10 .f32) (main_arg11 : FVec F S10 .f32) (main_arg12 : FVec F S10 .f32) (main_arg13 : FVec F S32x784x1024 .f32) (main_arg14 : FVec F S32x1x1024 .f32) (main_arg15 : FVec F S32x1024x1024 .f32) (main_arg16 : FVec F S32x1x1024 .f32) (main_arg17 : FVec F S32x1024x10 .f32) (main_arg18 : FVec F S32x1x10 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x10 .f32 := Host.absf main_arg9
  let main_cst_16 : FVec F S_ .f32 := constant S_ .f32 0x7F800000#32
  let main_v45 : FVec F S1024x10 .f32 := broadcastInDim S1024x10 ![] bcast_S_S1024x10 main_cst_16
  let main_v46 : IVec S1024x10 1 := cmpf .olt main_v44 main_v45
  let main_c_17 : IVec S_ 1 := constantI S_ 1 1#1
  let main_v47 : IVec S_ 1 := (fun x v => Host.reduce IntOp.andi x v reducesTo_S1024x10_S_d0_1 h_S_) main_v46 main_c_17
  let main_v48 : IVec S_ 1 := andi main_v43 main_v47
  let main_v49 : FVec F S1024x10 .f32 := Host.absf main_arg10
  let main_cst_18 : FVec F S_ .f32 := constant S_ .f32 0x7F800000#32
  let main_v50 : FVec F S1024x10 .f32 := broadcastInDim S1024x10 ![] bcast_S_S1024x10 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024x1024 .f32) (main_arg7 : FVec F S1024 .f32) (main_arg8 : FVec F S1024 .f32) (main_arg9 : FVec F S1024x10 .f32) (main_arg10 : FVec F S1024x10 .f32) (main_arg11 : FVec F S10 .f32) (main_arg12 : FVec F S10 .f32) (main_arg13 : FVec F S32x784x1024 .f32) (main_arg14 : FVec F S32x1x1024 .f32) (main_arg15 : FVec F S32x1024x1024 .f32) (main_arg16 : FVec F S32x1x1024 .f32) (main_arg17 : FVec F S32x1024x10 .f32) (main_arg18 : FVec F S32x1x10 .f32) (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024x1024 .f32 := Host.absf main_arg6
  let main_cst_10 : FVec F S_ .f32 := constant S_ .f32 0x7F800000#32
  let main_v30 : FVec F S1024x1024 .f32 := broadcastInDim S1024x1024 ![] bcast_S_S1024x1024 main_cst_10
  let main_v31 : IVec S1024x1024 1 := cmpf .olt main_v29 main_v30
  let main_c_11 : IVec S_ 1 := constantI S_ 1 1#1
  let main_v32 : IVec S_ 1 := (fun x v => Host.reduce IntOp.andi x v reducesTo_S1024x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S1024x784 .f32) (main_arg1 : FVec F S784x1024 .f32) (main_arg2 : FVec F S784x1024 .f32) (main_arg3 : FVec F S1024 .f32) (main_arg4 : FVec F S1024 .f32) (main_arg5 : FVec F S1024x1024 .f32) (main_arg6 : FVec F S1024x1024 .f32) (main_arg7 : FVec F S1024 .f32) (main_arg8 : FVec F S1024 .f32) (main_arg9 : FVec F S1024x10 .f32) (main_arg10 : FVec F S1024x10 .f32) (main_arg11 : FVec F S10 .f32) (main_arg12 : FVec F S10 .f32) (main_arg13 : FVec F S32x784x1024 .f32) (main_arg14 : FVec F S32x1x1024 .f32) (main_arg15 : FVec F S32x1024x1024 .f32) (main_arg16 : FVec F S32x1x1024 .f32) (main_arg17 : FVec F S32x1024x10 .f32) (main_arg18 : FVec F S32x1x10 .f32) : IVec S_ 1 :=
  let main_v0 : FVec F S1024x784 .f32 := Host.absf main_arg0
  let main_cst : FVec F S_ .f32 := constant S_ .f32 0x7F800000#32
  let main_v1 : FVec F S1024x784 .f32 := broadcastInDim S1024x784 ![] bcast_S_S1024x784 main_cst
  let main_v2 : IVec S1024x784 1 := cmpf .olt main_v0 main_v1
  let main_c : IVec S_ 1 := constantI S_ 1 1#1
  let main_v3 : IVec S_ 1 := (fun x v => Host.reduce IntOp.andi x v reducesTo_S1024x784_S_d0_1 h_S_) main_v2 main_c
  let main_v4 : FVec F S784x1024 .f32 := Host.absf main_arg1
  let main_cst_0 : FVec F S_ .f32 := constant S_ .f32 0x7F800000#32
  let main_v5 : FVec F S784x1024 .f32 := broadcastInDim S784x1024 ![] bcast_S_S784x1024 main_cst_0
  let main_v6 : IVec S784x1024 1 := cmpf .olt main_v4 main_v5
  let main_c_1 : IVec S_ 1 := constantI S_ 1 1#1
  let main_v7 : IVec S_ 1 := (fun x v => Host.reduce IntOp.andi x v reducesTo_S784x1024_S_d0_1 h_S_) main_v6 main_c_1
  let main_v8 : IVec S_ 1 := andi main_v3 main_v7
  let main_v9 : FVec F S784x1024 .f32 := Host.absf main_arg2
  let main_cst_2 : FVec F S_ .f32 := constant S_ .f32 0x7F800000#32
  let main_v10 : FVec F S784x1024 .f32 := broadcastInDim S784x1024 ![] bcast_S_S784x1024 main_cst_2
  let main_v11 : IVec S784x1024 1 := cmpf .olt main_v9 main_v10
  let main_c_3 : IVec S_ 1 := constantI S_ 1 1#1
  let main_v12 : IVec S_ 1 := (fun x v => Host.reduce IntOp.andi x v reducesTo_S784x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S1024x784 : Shape := ⟨2, ![1024, 784]⟩
abbrev S784x1024 : Shape := ⟨2, ![784, 1024]⟩
abbrev S1024 : Shape := ⟨1, ![1024]⟩
abbrev S1024x1024 : Shape := ⟨2, ![1024, 1024]⟩
abbrev S1024x10 : Shape := ⟨2, ![1024, 10]⟩
abbrev S10 : Shape := ⟨1, ![10]⟩
abbrev S32x784x1024 : Shape := ⟨3, ![32, 784, 1024]⟩
abbrev S32x1x1024 : Shape := ⟨3, ![32, 1, 1024]⟩
abbrev S32x1024x1024 : Shape := ⟨3, ![32, 1024, 1024]⟩
abbrev S32x1024x10 : Shape := ⟨3, ![32, 1024, 10]⟩
abbrev S32x1x10 : Shape := ⟨3, ![32, 1, 10]⟩
abbrev S1x784x1024 : Shape := ⟨3, ![1, 784, 1024]⟩
abbrev S1x1x1024 : Shape := ⟨3, ![1, 1, 1024]⟩
abbrev S1x1024x1024 : Shape := ⟨3, ![1, 1024, 1024]⟩
abbrev S1x1024x10 : Shape := ⟨3, ![1, 1024, 10]⟩
abbrev S1x1x10 : Shape := ⟨3, ![1, 1, 10]⟩
abbrev S1x1024 : Shape := ⟨2, ![1, 1024]⟩
abbrev S1x10 : Shape := ⟨2, ![1, 10]⟩

abbrev nBuf : Space → Nat
  | .hbm => 20
  | .vmem => 28
  | .smem => 0
  | _ => 0

abbrev bufTy : (tb : Table) → Fin (tcTables nBuf tb) → BufTy
  | .hbm, ⟨0, _⟩ => ⟨S1024x784, .f32⟩
  | .hbm, ⟨1, _⟩ => ⟨S784x1024, .f32⟩
  | .hbm, ⟨2, _⟩ => ⟨S784x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x10, .f32⟩
  | .hbm, ⟨10, _⟩ => ⟨S1024x10, .f32⟩
  | .hbm, ⟨11, _⟩ => ⟨S10, .f32⟩
  | .hbm, ⟨12, _⟩ => ⟨S10, .f32⟩
  | .hbm, ⟨13, _⟩ => ⟨S32x784x1024, .f32⟩
  | .hbm, ⟨14, _⟩ => ⟨S32x1x1024, .f32⟩
  | .hbm, ⟨15, _⟩ => ⟨S32x1024x1024, .f32⟩
  | .hbm, ⟨16, _⟩ => ⟨S32x1x1024, .f32⟩
  | .hbm, ⟨17, _⟩ => ⟨S32x1024x10, .f32⟩
  | .hbm, ⟨18, _⟩ => ⟨S32x1x10, .f32⟩
  | .hbm, ⟨19, _⟩ => ⟨S32x1024x10, .f32⟩
  | .local _ .vmem, ⟨0, _⟩ => ⟨S1024x784, .f32⟩
  | .local _ .vmem, ⟨1, _⟩ => ⟨S784x1024, .f32⟩
  | .local _ .vmem, ⟨2, _⟩ => ⟨S784x1024, .f32⟩
  | .local _ .vmem, ⟨3, _⟩ => ⟨S1024, .f32⟩
  | .local _ .vmem, ⟨4, _⟩ => ⟨S1024, .f32⟩
  | .local _ .vmem, ⟨5, _⟩ => ⟨S1024x1024, .f32⟩
  | .local _ .vmem, ⟨6, _⟩ => ⟨S1024x1024, .f32⟩
  | .local _ .vmem, ⟨7, _⟩ => ⟨S1024, .f32⟩
  | .local _ .vmem, ⟨8, _⟩ => ⟨S1024, .f32⟩
  | .local _ .vmem, ⟨9, _⟩ => ⟨S1024x10, .f32⟩
  | .local _ .vmem, ⟨10, _⟩ => ⟨S1024x10, .f32⟩
  | .local _ .vmem, ⟨11, _⟩ => ⟨S10, .f32⟩
  | .local _ .vmem, ⟨12, _⟩ => ⟨S10, .f32⟩
  | .local _ .vmem, ⟨13, _⟩ => ⟨S1x784x1024, .f32⟩
  | .local _ .vmem, ⟨14, _⟩ => ⟨S1x784x1024, .f32⟩
  | .local _ .vmem, ⟨15, _⟩ => ⟨S1x1x1024, .f32⟩
  | .local _ .vmem, ⟨16, _⟩ => ⟨S1x1x1024, .f32⟩
  | .local _ .vmem, ⟨17, _⟩ => ⟨S1x1024x1024, .f32⟩
  | .local _ .vmem, ⟨18, _⟩ => ⟨S1x1024x1024, .f32⟩
  | .local _ .vmem, ⟨19, _⟩ => ⟨S1x1x1024, .f32⟩
  | .local _ .vmem, ⟨20, _⟩ => ⟨S1x1x1024, .f32⟩
  | .local _ .vmem, ⟨21, _⟩ => ⟨S1x1024x10, .f32⟩
  | .local _ .vmem, ⟨22, _⟩ => ⟨S1x1024x10, .f32⟩
  | .local _ .vmem, ⟨23, _⟩ => ⟨S1x1x10, .f32⟩
  | .local _ .vmem, ⟨24, _⟩ => ⟨S1x1x10, .f32⟩
  | .local _ .vmem, ⟨25, _⟩ => ⟨S1x1024x10, .f32⟩
  | .local _ .vmem, ⟨26, _⟩ => ⟨S1x1024x10, .f32⟩
  | .local _ .vmem, ⟨27, _⟩ => ⟨S1024x1024, .f32⟩
  | _, _ => ⟨S1024x784, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg13_1 : Ref sig .tc := ⟨.vmem, 14, rfl⟩
abbrev cc0_stg14_0 : Ref sig .tc := ⟨.vmem, 15, rfl⟩
abbrev cc0_stg14_1 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_scratch0 : Ref sig .tc := ⟨.vmem, 27, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem13_1 : DmaSem sig := 14
abbrev cc0_sem14_0 : DmaSem sig := 15
abbrev cc0_sem14_1 : DmaSem sig := 16
abbrev cc0_sem15_0 : DmaSem sig := 17
abbrev cc0_sem15_1 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1024x784 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S784x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S784x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S10 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S10 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1x784x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x1x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x1024x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1024x10 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x10 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1024x10 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

class Facts₀ : Prop where
  inb_S1x784x1024_S1x784x1024_0_0_0 : ∀ a, (![0, 0, 0] : Fin 3 → Nat) a + S1x784x1024.size a ≤ S1x784x1024.size a
  h_S1x784x1024 : 0 < S1x784x1024.numel
  shapeCasts_S1x784x1024_S784x1024 : S1x784x1024.ShapeCasts S784x1024
  inb_S784x1024_S784x1024_0_0 : ∀ a, (![0, 0] : Fin 2 → Nat) a + S784x1024.size a ≤ S784x1024.size a
  h_S784x1024 : 0 < S784x1024.numel
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  inb_S1024_S1024_0 : ∀ a, (![0] : Fin 1 → Nat) a + S1024.size a ≤ S1024.size a
  h_S1024 : 0 < S1024.numel
  shapeCasts_S1024_S1x1024 : S1024.ShapeCasts S1x1024
  inb_S1024x784_S1024x784_0_0 : ∀ a, (![0, 0] : Fin 2 → Nat) a + S1024x784.size a ≤ S1024x784.size a
  h_S1024x784 : 0 < S1024x784.numel
  bitsLt_bf16_f32 : FTy.bits .bf16 < FTy.bits .f32
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S1x1024x10_S1x1024x10_0_0_0 : ∀ a, (![0, 0, 0] : Fin 3 → Nat) a + S1x1024x10.size a ≤ S1x1024x10.size a
  h_S1x1024x10 : 0 < S1x1024x10.numel
  shapeCasts_S1x1024x10_S1024x10 : S1x1024x10.ShapeCasts S1024x10
  inb_S1024x10_S1024x10_0_0 : ∀ a, (![0, 0] : Fin 2 → Nat) a + S1024x10.size a ≤ S1024x10.size a
  h_S1024x10 : 0 < S1024x10.numel
  inb_S1x1x10_S1x1x10_0_0_0 : ∀ a, (![0, 0, 0] : Fin 3 → Nat) a + S1x1x10.size a ≤ S1x1x10.size a
  h_S1x1x10 : 0 < S1x1x10.numel
  shapeCasts_S1x1x10_S1x10 : S1x1x10.ShapeCasts S1x10
  inb_S10_S10_0 : ∀ a, (![0] : Fin 1 → Nat) a + S10.size a ≤ S10.size a
  h_S10 : 0 < S10.numel
  shapeCasts_S10_S1x10 : S10.ShapeCasts S1x10
  broadcasts_S1x10_S1024x10 : S1x10.Broadcasts S1024x10
  shapeCasts_S1024x10_S1x1024x10 : S1024x10.ShapeCasts S1x1024x10
  dot_S1024x784_S784x1024_S1024x1024_1_0_0_1_n_n_wf : DotDims.WF S1024x784 S784x1024 S1024x1024 [1] [0] [0] [1] [] []
  dot_S1024x1024_S1024x1024_S1024x1024_1_0_0_1_n_n_wf : DotDims.WF S1024x1024 S1024x1024 S1024x1024 [1] [0] [0] [1] [] []
  dot_S1024x1024_S1024x10_S1024x10_1_0_0_1_n_n_wf : DotDims.WF S1024x1024 S1024x10 S1024x10 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x784.size a ≤ S1024x784.size a
  hwx0_0 : ∀ i : grid0.Coords, EltTy.bits .f32 = 32 ∨ (Rect.block (s := S1024x784) S1024x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S784x1024.size a ≤ S784x1024.size a
  hwx0_1 : ∀ i : grid0.Coords, EltTy.bits .f32 = 32 ∨ (Rect.block (s := S784x1024) S784x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S784x1024.size a ≤ S784x1024.size a
  hwx0_2 : ∀ i : grid0.Coords, EltTy.bits .f32 = 32 ∨ (Rect.block (s := S784x1024) S784x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024.size a ≤ S1024.size a
  hwx0_4 : ∀ i : grid0.Coords, EltTy.bits .f32 = 32 ∨ (Rect.block (s := S1024) S1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .f32 = 32 ∨ (Rect.block (s := S1024x1024) S1024x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S1024x1024.size a
  hwx0_6 : ∀ i : grid0.Coords, EltTy.bits .f32 = 32 ∨ (Rect.block (s := S1024x1024) S1024x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024.size a ≤ S1024.size a
  hwx0_7 : ∀ i : grid0.Coords, EltTy.bits .f32 = 32 ∨ (Rect.block (s := S1024) S1024.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024.size a ≤ S1024.size a
  hwx0_8 : ∀ i : grid0.Coords, EltTy.bits .f32 = 32 ∨ (Rect.block (s := S1024) S1024.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1024x10.size a ≤ S1024x10.size a
  hwx0_9 : ∀ i : grid0.Coords, EltTy.bits .f32 = 32 ∨ (Rect.block (s := S1024x10) S1024x10.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1024x10.size a ≤ S1024x10.size a
  hwx0_10 : ∀ i : grid0.Coords, EltTy.bits .f32 = 32 ∨ (Rect.block (s := S1024x10) S1024x10.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S10.size a ≤ S10.size a
  hwx0_11 : ∀ i : grid0.Coords, EltTy.bits .f32 = 32 ∨ (Rect.block (s := S10) S10.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S10.size a ≤ S10.size a
  hwx0_12 : ∀ i : grid0.Coords, EltTy.bits .f32 = 32 ∨ (Rect.block (s := S10) S10.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x784x1024.size a ≤ S32x784x1024.size a
  hwx0_13 : ∀ i : grid0.Coords, EltTy.bits .f32 = 32 ∨ (Rect.block (s := S32x784x1024) S1x784x1024.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x1x1024.size a ≤ S32x1x1024.size a
  hwx0_14 : ∀ i : grid0.Coords, EltTy.bits .f32 = 32 ∨ (Rect.block (s := S32x1x1024) S1x1x1024.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1x1024x1024.size a ≤ S32x1024x1024.size a
  hwx0_15 : ∀ i : grid0.Coords, EltTy.bits .f32 = 32 ∨ (Rect.block (s := S32x1024x1024) S1x1024x1024.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1x1x1024.size a ≤ S32x1x1024.size a
  hwx0_16 : ∀ i : grid0.Coords, EltTy.bits .f32 = 32 ∨ (Rect.block (s := S32x1x1024) S1x1x1024.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S1x1024x10.size a ≤ S32x1024x10.size a
  hwx0_17 : ∀ i : grid0.Coords, EltTy.bits .f32 = 32 ∨ (Rect.block (s := S32x1024x10) S1x1024x10.size (cc0_transform_17 i) (hinb0_17 i)).WholeWords (EltTy.packing .f32)
  hstage0_18 : ∀ j, (stage0_18 j).IsWhole
  nbuf0_18 : grid0.bufCount reads0_18 false = 2
  hreads0_18 : ∀ i i' : grid0.Coords, (∀ a, reads0_18 a = true → i a = i' a) → cc0_transform_18 i = cc0_transform_18 i'
  hinb0_18 : ∀ (i : grid0.Coords) a, (cc0_transform_18 i a + 1) * S1x1x10.size a ≤ S32x1x10.size a
  hwx0_18 : ∀ i : grid0.Coords, EltTy.bits .f32 = 32 ∨ (Rect.block (s := S32x1x10) S1x1x10.size (cc0_transform_18 i) (hinb0_18 i)).WholeWords (EltTy.packing .f32)
  hstage0_19 : ∀ j, (stage0_19 j).IsWhole
  nbuf0_19 : grid0.bufCount reads0_19 false = 2
  hreads0_19 : ∀ i i' : grid0.Coords, (∀ a, reads0_19 a = true → i a = i' a) → cc0_transform_19 i = cc0_transform_19 i'
  hinb0_19 : ∀ (i : grid0.Coords) a, (cc0_transform_19 i a + 1) * S1x1024x10.size a ≤ S32x1024x10.size a
  hwx0_19 : ∀ i : grid0.Coords, EltTy.bits .f32 = 32 ∨ (Rect.block (s := S32x1024x10) S1x1024x10.size (cc0_transform_19 i) (hinb0_19 i)).WholeWords (EltTy.packing .f32)

variable [Facts₀]

def dot_S1024x784_S784x1024_S1024x1024_1_0_0_1_n_n : DotDims S1024x784 S784x1024 S1024x1024 where
  lhsContracting := [1]
  rhsContracting := [0]
  lhsNonContracting := [0]
  rhsNonContracting := [1]
  lhsBatch := []
  rhsBatch := []
  wf := dot_S1024x784_S784x1024_S1024x1024_1_0_0_1_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S1024x1024_S1024x10_S1024x10_1_0_0_1_n_n : DotDims S1024x1024 S1024x10 S1024x10 where
  lhsContracting := [1]
  rhsContracting := [0]
  lhsNonContracting := [0]
  rhsNonContracting := [1]
  lhsBatch := []
  rhsBatch := []
  wf := dot_S1024x1024_S1024x10_S1024x10_1_0_0_1_n_n_wf

abbrev win0_0 : Pipeline.Window sig grid0 :=
  Pipeline.Window.ofSpec (Memref.whole main_arg0) S1024x784.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S784x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S784x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S1024x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S1024x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S10.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S10.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S1x784x1024.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S1x1x1024.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S1x1024x1024.size cc0_transform_15 reads0_15 false false 2 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S1x1x1024.size cc0_transform_16 reads0_16 false false 2 stage0_16 sem0_16
    hrank0 hreads0_16 hinb0_16 nbuf0_16 (Memref.isWhole_whole _) hwx0_16 hstage0_16

abbrev win0_17 : Pipeline.Window sig grid0 :=
  Pipeline.Window.ofSpec (Memref.whole main_arg17) S1x1024x10.size cc0_transform_17 reads0_17 false false 2 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S1x1x10.size cc0_transform_18 reads0_18 false false 2 stage0_18 sem0_18
    hrank0 hreads0_18 hinb0_18 nbuf0_18 (Memref.isWhole_whole _) hwx0_18 hstage0_18

abbrev win0_19 : Pipeline.Window sig grid0 :=
  Pipeline.Window.ofSpec (Memref.whole main_v0) S1x1024x10.size cc0_transform_19 reads0_19 true false 2 stage0_19 sem0_19
    hrank0 hreads0_19 hinb0_19 nbuf0_19 (Memref.isWhole_whole _) hwx0_19 hstage0_19

abbrev win0 : Fin 20 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | ⟨_ + 20, h⟩ => absurd h (Nat.not_lt.2 (Nat.le_add_left _ _))
abbrev spec0 : Fin 20 → Pipeline.WinSpec sig grid0.rank := fun w => (win0 w).toWinSpec

class Facts : Prop extends Facts₀ where

variable [Facts]
-- ==== ReferenceIdeal.lean ====
abbrev S1024x784 : Shape := ⟨2, ![1024, 784]⟩
abbrev S784x1024 : Shape := ⟨2, ![784, 1024]⟩
abbrev S1024 : Shape := ⟨1, ![1024]⟩
abbrev S1024x1024 : Shape := ⟨2, ![1024, 1024]⟩
abbrev S1024x10 : Shape := ⟨2, ![1024, 10]⟩
abbrev S10 : Shape := ⟨1, ![10]⟩
abbrev S32x784x1024 : Shape := ⟨3, ![32, 784, 1024]⟩
abbrev S32x1x1024 : Shape := ⟨3, ![32, 1, 1024]⟩
abbrev S32x1024x1024 : Shape := ⟨3, ![32, 1024, 1024]⟩
abbrev S32x1024x10 : Shape := ⟨3, ![32, 1024, 10]⟩
abbrev S32x1x10 : Shape := ⟨3, ![32, 1, 10]⟩
abbrev S1x1024x784 : Shape := ⟨3, ![1, 1024, 784]⟩
abbrev S32x1024x784 : Shape := ⟨3, ![32, 1024, 784]⟩
abbrev S_ : Shape := ⟨0, ![]⟩
abbrev S1x784x1024 : Shape := ⟨3, ![1, 784, 1024]⟩
abbrev S1x1x1024 : Shape := ⟨3, ![1, 1, 1024]⟩
abbrev S1x1024x1024 : Shape := ⟨3, ![1, 1024, 1024]⟩
abbrev S1x1024x10 : Shape := ⟨3, ![1, 1024, 10]⟩
abbrev S1x1x10 : Shape := ⟨3, ![1, 1, 10]⟩

abbrev nBuf : Space → Nat
  | .hbm => 96
  | .vmem => 0
  | .smem => 0
  | _ => 0

abbrev bufTy : (tb : Table) → Fin (tcTables nBuf tb) → BufTy
  | .hbm, ⟨0, _⟩ => ⟨S1024x784, .f32⟩
  | .hbm, ⟨1, _⟩ => ⟨S784x1024, .f32⟩
  | .hbm, ⟨2, _⟩ => ⟨S784x1024, .f32⟩
  | .hbm, ⟨3, _⟩ => ⟨S1024, .f32⟩
  | .hbm, ⟨4, _⟩ => ⟨S1024, .f32⟩
  | .hbm, ⟨5, _⟩ => ⟨S1024x1024, .f32⟩
  | .hbm, ⟨6, _⟩ => ⟨S1024x1024, .f32⟩
  | .hbm, ⟨7, _⟩ => ⟨S1024, .f32⟩
  | .hbm, ⟨8, _⟩ => ⟨S1024, .f32⟩
  | .hbm, ⟨9, _⟩ => ⟨S1024x10, .f32⟩
  | .hbm, ⟨10, _⟩ => ⟨S1024x10, .f32⟩
  | .hbm, ⟨11, _⟩ => ⟨S10, .f32⟩
  | .hbm, ⟨12, _⟩ => ⟨S10, .f32⟩
  | .hbm, ⟨13, _⟩ => ⟨S32x784x1024, .f32⟩
  | .hbm, ⟨14, _⟩ => ⟨S32x1x1024, .f32⟩
  | .hbm, ⟨15, _⟩ => ⟨S32x1024x1024, .f32⟩
  | .hbm, ⟨16, _⟩ => ⟨S32x1x1024, .f32⟩
  | .hbm, ⟨17, _⟩ => ⟨S32x1024x10, .f32⟩
  | .hbm, ⟨18, _⟩ => ⟨S32x1x10, .f32⟩
  | .hbm, ⟨19, _⟩ => ⟨S1x1024x784, .f32⟩
  | .hbm, ⟨20, _⟩ => ⟨S32x1024x784, .f32⟩
  | .hbm, ⟨21, _⟩ => ⟨S_, .f32⟩
  | .hbm, ⟨22, _⟩ => ⟨S784x1024, .f32⟩
  | .hbm, ⟨23, _⟩ => ⟨S784x1024, .f32⟩
  | .hbm, ⟨24, _⟩ => ⟨S784x1024, .f32⟩
  | .hbm, ⟨25, _⟩ => ⟨S1x784x1024, .f32⟩
  | .hbm, ⟨26, _⟩ => ⟨S32x784x1024, .f32⟩
  | .hbm, ⟨27, _⟩ => ⟨S32x784x1024, .f32⟩
  | .hbm, ⟨28, _⟩ => ⟨S1x784x1024, .f32⟩
  | .hbm, ⟨29, _⟩ => ⟨S32x784x1024, .f32⟩
  | .hbm, ⟨30, _⟩ => ⟨S32x784x1024, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S1024, .f32⟩
  | .hbm, ⟨35, _⟩ => ⟨S1x1x1024, .f32⟩
  | .hbm, ⟨36, _⟩ => ⟨S32x1x1024, .f32⟩
  | .hbm, ⟨37, _⟩ => ⟨S32x1x1024, .f32⟩
  | .hbm, ⟨38, _⟩ => ⟨S1x1x1024, .f32⟩
  | .hbm, ⟨39, _⟩ => ⟨S32x1x1024, .f32⟩
  | .hbm, ⟨40, _⟩ => ⟨S32x1x1024, .f32⟩
  | .hbm, ⟨41, _⟩ => ⟨S32x1024x1024, .f32⟩
  | .hbm, ⟨42, _⟩ => ⟨S32x1024x1024, .f32⟩
  | .hbm, ⟨43, _⟩ => ⟨S32x1024x1024, .f32⟩
  | .hbm, ⟨44, _⟩ => ⟨S_, .f32⟩
  | .hbm, ⟨45, _⟩ => ⟨S32x1024x1024, .f32⟩
  | .hbm, ⟨46, _⟩ => ⟨S32x1024x1024, .f32⟩
  | .hbm, ⟨47, _⟩ => ⟨S_, .f32⟩
  | .hbm, ⟨48, _⟩ => ⟨S1024x1024, .f32⟩
  | .hbm, ⟨49, _⟩ => ⟨S1024x1024, .f32⟩
  | .hbm, ⟨50, _⟩ => ⟨S1024x1024, .f32⟩
  | .hbm, ⟨51, _⟩ => ⟨S1x1024x1024, .f32⟩
  | .hbm, ⟨52, _⟩ => ⟨S32x1024x1024, .f32⟩
  | .hbm, ⟨53, _⟩ => ⟨S32x1024x1024, .f32⟩
  | .hbm, ⟨54, _⟩ => ⟨S1x1024x1024, .f32⟩
  | .hbm, ⟨55, _⟩ => ⟨S32x1024x1024, .f32⟩
  | .hbm, ⟨56, _⟩ => ⟨S32x1024x1024, .f32⟩
  | .hbm, ⟨57, _⟩ => ⟨S_, .f32⟩
  | .hbm, ⟨58, _⟩ => ⟨S1024, .f32⟩
  | .hbm, ⟨59, _⟩ => ⟨S1024, .f32⟩
  | .hbm, ⟨60, _⟩ => ⟨S1024, .f32⟩
  | .hbm, ⟨61, _⟩ => ⟨S1x1x1024, .f32⟩
  | .hbm, ⟨62, _⟩ => ⟨S32x1x1024, .f32⟩
  | .hbm, ⟨63, _⟩ => ⟨S32x1x1024, .f32⟩
  | .hbm, ⟨64, _⟩ => ⟨S1x1x1024, .f32⟩
  | .hbm, ⟨65, _⟩ => ⟨S32x1x1024, .f32⟩
  | .hbm, ⟨66, _⟩ => ⟨S32x1x1024, .f32⟩
  | .hbm, ⟨67, _⟩ => ⟨S32x1024x1024, .f32⟩
  | .hbm, ⟨68, _⟩ => ⟨S32x1024x1024, .f32⟩
  | .hbm, ⟨69, _⟩ => ⟨S32x1024x1024, .f32⟩
  | .hbm, ⟨70, _⟩ => ⟨S_, .f32⟩
  | .hbm, ⟨71, _⟩ => ⟨S32x1024x1024, .f32⟩
  | .hbm, ⟨72, _⟩ => ⟨S32x1024x1024, .f32⟩
  | .hbm, ⟨73, _⟩ => ⟨S_, .f32⟩
  | .hbm, ⟨74, _⟩ => ⟨S1024x10, .f32⟩
  | .hbm, ⟨75, _⟩ => ⟨S1024x10, .f32⟩
  | .hbm, ⟨76, _⟩ => ⟨S1024x10, .f32⟩
  | .hbm, ⟨77, _⟩ => ⟨S1x1024x10, .f32⟩
  | .hbm, ⟨78, _⟩ => ⟨S32x1024x10, .f32⟩
  | .hbm, ⟨79, _⟩ => ⟨S32x1024x10, .f32⟩
  | .hbm, ⟨80, _⟩ => ⟨S1x1024x10, .f32⟩
  | .hbm, ⟨81, _⟩ => ⟨S32x1024x10, .f32⟩
  | .hbm, ⟨82, _⟩ => ⟨S32x1024x10, .f32⟩
  | .hbm, ⟨83, _⟩ => ⟨S_, .f32⟩
  | .hbm, ⟨84, _⟩ => ⟨S10, .f32⟩
  | .hbm, ⟨85, _⟩ => ⟨S10, .f32⟩
  | .hbm, ⟨86, _⟩ => ⟨S10, .f32⟩
  | .hbm, ⟨87, _⟩ => ⟨S1x1x10, .f32⟩
  | .hbm, ⟨88, _⟩ => ⟨S32x1x10, .f32⟩
  | .hbm, ⟨89, _⟩ => ⟨S32x1x10, .f32⟩
  | .hbm, ⟨90, _⟩ => ⟨S1x1x10, .f32⟩
  | .hbm, ⟨91, _⟩ => ⟨S32x1x10, .f32⟩
  | .hbm, ⟨92, _⟩ => ⟨S32x1x10, .f32⟩
  | .hbm, ⟨93, _⟩ => ⟨S32x1024x10, .f32⟩
  | .hbm, ⟨94, _⟩ => ⟨S32x1024x10, .f32⟩
  | .hbm, ⟨95, _⟩ => ⟨S32x1024x10, .f32⟩
  | _, _ => ⟨S1024x784, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_cst : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_0 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_call0_cst : Ref sig .tc := ⟨.hbm, 44, rfl⟩
abbrev main_call0_v0 : Ref sig .tc := ⟨.hbm, 45, rfl⟩
abbrev main_v23 : Ref sig .tc := ⟨.hbm, 46, rfl⟩
abbrev main_cst_1 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_cst_2 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_call1_cst : Ref sig .tc := ⟨.hbm, 70, rfl⟩
abbrev main_call1_v0 : Ref sig .tc := ⟨.hbm, 71, rfl⟩
abbrev main_v45 : Ref sig .tc := ⟨.hbm, 72, rfl⟩
abbrev main_cst_3 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_cst_4 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩

abbrev nD : Nat := 1
abbrev τ : Topo := Topo.v7x

variable {F : FTy → Type} [FloatOps F]

class Facts₀ : Prop where
  bcast_S1024x784_S1x1024x784_1_2 : S1024x784.BroadcastsInDim S1x1024x784 (![1, 2] : Fin 2 → Fin S1x1024x784.rank)
  bcast_S1x1024x784_S32x1024x784_0_1_2 : S1x1024x784.BroadcastsInDim S32x1024x784 (![0, 1, 2] : Fin 3 → Fin S32x1024x784.rank)
  bcast_S_S784x1024 : S_.BroadcastsInDim S784x1024 (![] : Fin 0 → Fin S784x1024.rank)
  bcast_S784x1024_S1x784x1024_1_2 : S784x1024.BroadcastsInDim S1x784x1024 (![1, 2] : Fin 2 → Fin S1x784x1024.rank)
  bcast_S1x784x1024_S32x784x1024_0_1_2 : S1x784x1024.BroadcastsInDim S32x784x1024 (![0, 1, 2] : Fin 3 → Fin S32x784x1024.rank)
  bcast_S_S1024 : S_.BroadcastsInDim S1024 (![] : Fin 0 → Fin S1024.rank)
  bcast_S1024_S1x1x1024_2 : S1024.BroadcastsInDim S1x1x1024 (![2] : Fin 1 → Fin S1x1x1024.rank)
  bcast_S1x1x1024_S32x1x1024_0_1_2 : S1x1x1024.BroadcastsInDim S32x1x1024 (![0, 1, 2] : Fin 3 → Fin S32x1x1024.rank)
  bcast_S32x1x1024_S32x1024x1024_0_1_2 : S32x1x1024.BroadcastsInDim S32x1024x1024 (![0, 1, 2] : Fin 3 → Fin S32x1024x1024.rank)
  bcast_S_S32x1024x1024 : S_.BroadcastsInDim S32x1024x1024 (![] : Fin 0 → Fin S32x1024x1024.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  bcast_S_S1024x10 : S_.BroadcastsInDim S1024x10 (![] : Fin 0 → Fin S1024x10.rank)
  bcast_S1024x10_S1x1024x10_1_2 : S1024x10.BroadcastsInDim S1x1024x10 (![1, 2] : Fin 2 → Fin S1x1024x10.rank)
  bcast_S1x1024x10_S32x1024x10_0_1_2 : S1x1024x10.BroadcastsInDim S32x1024x10 (![0, 1, 2] : Fin 3 → Fin S32x1024x10.rank)
  bcast_S_S10 : S_.BroadcastsInDim S10 (![] : Fin 0 → Fin S10.rank)
  bcast_S10_S1x1x10_2 : S10.BroadcastsInDim S1x1x10 (![2] : Fin 1 → Fin S1x1x10.rank)
  bcast_S1x1x10_S32x1x10_0_1_2 : S1x1x10.BroadcastsInDim S32x1x10 (![0, 1, 2] : Fin 3 → Fin S32x1x10.rank)
  bcast_S32x1x10_S32x1024x10_0_1_2 : S32x1x10.BroadcastsInDim S32x1024x10 (![0, 1, 2] : Fin 3 → Fin S32x1024x10.rank)
  dot_S32x1024x784_S32x784x1024_S32x1024x1024_2_1_1_2_0_0_wf : DotDims.WF S32x1024x784 S32x784x1024 S32x1024x1024 [2] [1] [1] [2] [0] [0]
  dot_S32x1024x1024_S32x1024x1024_S32x1024x1024_2_1_1_2_0_0_wf : DotDims.WF S32x1024x1024 S32x1024x1024 S32x1024x1024 [2] [1] [1] [2] [0] [0]
  dot_S32x1024x1024_S32x1024x10_S32x1024x10_2_1_1_2_0_0_wf : DotDims.WF S32x1024x1024 S32x1024x10 S32x1024x10 [2] [1] [1] [2] [0] [0]

variable [Facts₀]

def dot_S32x1024x784_S32x784x1024_S32x1024x1024_2_1_1_2_0_0 : DotDims S32x1024x784 S32x784x1024 S32x1024x1024 where
  lhsContracting := [2]
  rhsContracting := [1]
  lhsNonContracting := [1]
  rhsNonContracting := [2]
  lhsBatch := [0]
  rhsBatch := [0]
  wf := dot_S32x1024x784_S32x784x1024_S32x1024x1024_2_1_1_2_0_0_wf
def dot_S32x1024x1024_S32x1024x1024_S32x1024x1024_2_1_1_2_0_0 : DotDims S32x1024x1024 S32x1024x1024 S32x1024x1024 where
  lhsContracting := [2]
  rhsContracting := [1]
  lhsNonContracting := [1]
  rhsNonContracting := [2]
  lhsBatch := [0]
  rhsBatch := [0]
  wf := dot_S32x1024x1024_S32x1024x1024_S32x1024x1024_2_1_1_2_0_0_wf
def dot_S32x1024x1024_S32x1024x10_S32x1024x10_2_1_1_2_0_0 : DotDims S32x1024x1024 S32x1024x10 S32x1024x10 where
  lhsContracting := [2]
  rhsContracting := [1]
  lhsNonContracting := [1]
  rhsNonContracting := [2]
  lhsBatch := [0]
  rhsBatch := [0]
  wf := dot_S32x1024x1024_S32x1024x10_S32x1024x10_2_1_1_2_0_0_wf

class Facts : Prop extends Facts₀ where

variable [Facts]
-- ==== Proof.Block.lean ====
/-
  What one grid point leaves in the output block, as a closed term.

  At a grid point the body runs three layers through one scratch block: it stores the first hidden activation
  into the scratch, loads it back as the second layer's input, stores the second hidden activation over it, loads
  that back as the last layer's input, and finally stores the logits into the output block.  Every store covers
  its whole buffer and every load reads a whole buffer, so a load after a store reads exactly the stored payload,
  and the output block ends as the last payload applied to the second, applied to the first.
-/
import proofs.«110567_j36532991820264_1_alg».proof.Proof.Gen.KernelIdeal.Frame
import Idealize.ShloMosaic.Lib.Pipeline.Value
import Idealize.ShloMosaic.Lib.Tactic

set_option maxRecDepth 16384

noncomputable section

namespace Cert.Bnn.Kernel

open Cert.KernelIdeal Cert.KernelIdeal.Gen
open Idealize.ShloMosaic Idealize.ShloMosaic.TcCoe Idealize.ShloMosaic.Tactic Idealize.SL.Sem

variable {F : FTy → Type} [FloatOps F]

/-- The zero offsets of a whole-buffer access, rank by rank. -/
theorem off1 : (![0] : Fin 1 → Nat) = fun _ => 0 := funext fun a => by fin_cases a <;> rfl
theorem off2 : (![0, 0] : Fin 2 → Nat) = fun _ => 0 := funext fun a => by fin_cases a <;> rfl
theorem off3 : (![0, 0, 0] : Fin 3 → Nat) = fun _ => 0 := funext fun a => by fin_cases a <;> rfl

/-- A whole-buffer load after several stores of which the LAST covers the whole buffer reads that last payload,
    whatever the earlier stores were. -/
theorem readCov_last_whole {Val : EltTy → Type} [∀ e, Nonempty (Val e)] {sig' : RefSig} {κ : Kind} {sp : Space} {S : Shape} {e : EltTy}
    (v : View sig' κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-- The first hidden activation block, from the point's input blocks. -/
abbrev act0 (x0 : Vec F S1024x784 .f32) (x1 x2 : Vec F S784x1024 .f32) (x3 x4 : Vec F S1024 .f32)
    (x13 : Vec F S1x784x1024 .f32) (x14 : Vec F S1x1x1024 .f32) : FVec F S1024x1024 .f32 :=
  k0_pay2 x13 x2 x1 x14 x4 x3 x0

/-- The second hidden activation block: the second payload over the first, read back from the scratch. -/
abbrev act1 (x0 : Vec F S1024x784 .f32) (x1 x2 : Vec F S784x1024 .f32) (x3 x4 : Vec F S1024 .f32)
    (x5 x6 : Vec F S1024x1024 .f32) (x7 x8 : Vec F S1024 .f32)
    (x13 : Vec F S1x784x1024 .f32) (x14 : Vec F S1x1x1024 .f32) (x15 : Vec F S1x1024x1024 .f32) (x16 : Vec F S1x1x1024 .f32) :
    FVec F S1024x1024 .f32 :=
  k0_pay4 (k0_pay3 x15) x6 x5 x16 x8 x7 (act0 x0 x1 x2 x3 x4 x13 x14)

/-- The output block of one grid point is the logits payload over the second activation block. -/
theorem block_eq (c : Dev nD) (i : grid0.Coords) (arg1 : Memref sig .tc .vmem S1024x784 .f32) (harg1 : arg1.IsWhole) (arg2 : Memref sig .tc .vmem S784x1024 .f32) (harg2 : arg2.IsWhole) (arg3 : Memref sig .tc .vmem S784x1024 .f32) (harg3 : arg3.IsWhole) (arg4 : Memref sig .tc .vmem S1024 .f32) (harg4 : arg4.IsWhole) (arg5 : Memref sig .tc .vmem S1024 .f32) (harg5 : arg5.IsWhole) (arg6 : Memref sig .tc .vmem S1024x1024 .f32) (harg6 : arg6.IsWhole) (arg7 : Memref sig .tc .vmem S1024x1024 .f32) (harg7 : arg7.IsWhole) (arg8 : Memref sig .tc .vmem S1024 .f32) (harg8 : arg8.IsWhole) (arg9 : Memref sig .tc .vmem S1024 .f32) (harg9 : arg9.IsWhole) (arg10 : Memref sig .tc .vmem S1024x10 .f32) (harg10 : arg10.IsWhole) (arg11 : Memref sig .tc .vmem S1024x10 .f32) (harg11 : arg11.IsWhole) (arg12 : Memref sig .tc .vmem S10 .f32) (harg12 : arg12.IsWhole) (arg13 : Memref sig .tc .vmem S10 .f32) (harg13 : arg13.IsWhole) (arg14 : Memref sig .tc .vmem S1x784x1024 .f32) (harg14 : arg14.IsWhole) (arg15 : Memref sig .tc .vmem S1x1x1024 .f32) (harg15 : arg15.IsWhole) (arg16 : Memref sig .tc .vmem S1x1024x1024 .f32) (harg16 : arg16.IsWhole) (arg17 : Memref sig .tc .vmem S1x1x1024 .f32) (harg17 : arg17.IsWhole) (arg18 : Memref sig .tc .vmem S1x1024x10 .f32) (harg18 : arg18.IsWhole) (arg19 : Memref sig .tc .vmem S1x1x10 .f32) (harg19 : arg19.IsWhole) (arg20 : Memref sig .tc .vmem S1x1024x10 .f32) (harg20 : arg20.IsWhole) (arg21 : Memref sig .tc .vmem S1024x1024 .f32) (harg21 : arg21.IsWhole) (x0 : Vec F S1024x784 .f32) (x1 : Vec F S784x1024 .f32) (x2 : Vec F S784x1024 .f32) (x3 : Vec F S1024 .f32) (x4 : Vec F S1024 .f32) (x5 : Vec F S1024x1024 .f32) (x6 : Vec F S1024x1024 .f32) (x7 : Vec F S1024 .f32) (x8 : Vec F S1024 .f32) (x9 : Vec F S1024x10 .f32) (x10 : Vec F S1024x10 .f32) (x11 : Vec F S10 .f32) (x12 : Vec F S10 .f32) (x13 : Vec F S1x784x1024 .f32) (x14 : Vec F S1x1x1024 .f32) (x15 : Vec F S1x1024x1024 .f32) (x16 : Vec F S1x1x1024 .f32) (x17 : Vec F S1x1024x10 .f32) (x18 : Vec F S1x1x10 .f32) :
    out0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18
      = k0_pay1 (k0_pay5 x17 x10) x9 x18 x12 x11 (act1 x0 x1 x2 x3 x4 x5 x6 x7 x8 x13 x14 x15 x16) := by
  unfold out0_A_19
  rw [View.read_writes_eq_canon _ _ _ (cover0_A_19 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 x16 x17 x18)]
  unfold kernelRun0_A
  dsimp only
  sl_unfold_words
  rw [View.canon_unit_zero (S := S1x1024x10) off3]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, View.ld_unit_zero (S := S1024x784) off2, View.ld_unit_zero (S := S784x1024) off2, View.ld_unit_zero (S := S1024) off1, View.ld_unit_zero (S := S1024x1024) off2, View.ld_unit_zero (S := S1024x10) off2, View.ld_unit_zero (S := S10) off1, View.ld_unit_zero (S := S1x784x1024) off3, View.ld_unit_zero (S := S1x1x1024) off3, View.ld_unit_zero (S := S1x1024x1024) off3, View.ld_unit_zero (S := S1x1024x10) off3, View.ld_unit_zero (S := S1x1x10) off3,
    readCov_last_whole (S := S1024x1024) _ off2, View.readCov_unit_zero (S := S1024x1024) _ off2]

end Cert.Bnn.Kernel

end
-- ==== Proof.Spec.lean ====
/-
  The function both programs compute, written once over plain coordinates.

  A Bayesian three-layer perceptron evaluated for 32 independent weight samples.  For sample `s` every weight is
  drawn by reparameterization: `noise · exp(½ · logvar) + mean`, the noise indexed by the sample, the log-variance
  and the mean shared by all samples.  A layer is the affine map `a ↦ a · W + b` (a finite sum over the input
  features for each row and output feature); the two hidden layers are followed by `max(·, 0)`.

  Everything is an extended real: the sums are `Finset` sums in `EReal`, the literals `½` and `0` are kept as
  the binary words the programs print (the same words occur on both sides, so they are never evaluated).
-/
import Idealize.ShloMosaic.PureOps.Ideal
import Idealize.ShloMosaic.Lib.ValueIdx

noncomputable section

open scoped BigOperators

namespace Cert.Bnn

open Idealize.ShloMosaic Idealize.ShloMosaic.ValueIdx

/-- The literal `0.5` both programs multiply a log-variance by. -/
abbrev half : EReal := Ideal.ofBits .f32 0x3F000000#32

/-- The literal `0.0` both programs clamp a hidden activation at. -/
abbrev zero : EReal := Ideal.ofBits .f32 0x00000000#32

/-- Sample `s` of a weight matrix at input feature `i`, output feature `o`:
    `noise[s,i,o] · exp(½ · logvar[i,o]) + mean[i,o]`. -/
def weight {I O : Nat} (we : (⟨3, ![32, I, O]⟩ : Shape).Idx → EReal) (wv wm : (⟨2, ![I, O]⟩ : Shape).Idx → EReal)
    (s : Fin 32) (i : Fin I) (o : Fin O) : EReal :=
  we (ix3 s i o) * Ideal.exp (half * wv (ix2 i o)) + wm (ix2 i o)

/-- Sample `s` of a bias vector at output feature `o`: `noise[s,0,o] · exp(½ · logvar[o]) + mean[o]`. -/
def bias {O : Nat} (be : (⟨3, ![32, 1, O]⟩ : Shape).Idx → EReal) (bv bm : (⟨1, ![O]⟩ : Shape).Idx → EReal)
    (s : Fin 32) (o : Fin O) : EReal :=
  be (ix3 s 0 o) * Ideal.exp (half * bv (ix1 o)) + bm (ix1 o)

/-- One affine layer at row `r`, output feature `o`: `Σ_i a[r,i] · W[i,o] + b[o]`. -/
def affine {B I O : Nat} (a : Fin B → Fin I → EReal) (W : Fin I → Fin O → EReal) (b : Fin O → EReal)
    (r : Fin B) (o : Fin O) : EReal :=
  (∑ i : Fin I, a r i * W i o) + b o

/-- The hidden activation: `max(h, 0)`. -/
def relu (h : EReal) : EReal := max h zero

section network

variable (x : (⟨2, ![1024, 784]⟩ : Shape).Idx → EReal)
  (wm0 wv0 : (⟨2, ![784, 1024]⟩ : Shape).Idx → EReal) (bm0 bv0 : (⟨1, ![1024]⟩ : Shape).Idx → EReal)
  (wm1 wv1 : (⟨2, ![1024, 1024]⟩ : Shape).Idx → EReal) (bm1 bv1 : (⟨1, ![1024]⟩ : Shape).Idx → EReal)
  (wlm wlv : (⟨2, ![1024, 10]⟩ : Shape).Idx → EReal) (blm blv : (⟨1, ![10]⟩ : Shape).Idx → EReal)
  (we0 : (⟨3, ![32, 784, 1024]⟩ : Shape).Idx → EReal) (be0 : (⟨3, ![32, 1, 1024]⟩ : Shape).Idx → EReal)
  (we1 : (⟨3, ![32, 1024, 1024]⟩ : Shape).Idx → EReal) (be1 : (⟨3, ![32, 1, 1024]⟩ : Shape).Idx → EReal)
  (wel : (⟨3, ![32, 1024, 10]⟩ : Shape).Idx → EReal) (bel : (⟨3, ![32, 1, 10]⟩ : Shape).Idx → EReal)

/-- The first hidden activation of sample `s`: row `r`, feature `o`. -/
def hidden0 (s : Fin 32) (r : Fin 1024) (o : Fin 1024) : EReal :=
  relu (affine (fun r i => x (ix2 r i)) (weight we0 wv0 wm0 s) (bias be0 bv0 bm0 s) r o)

/-- The second hidden activation of sample `s`. -/
def hidden1 (s : Fin 32) (r : Fin 1024) (o : Fin 1024) : EReal :=
  relu (affine (hidden0 x wm0 wv0 bm0 bv0 we0 be0 s) (weight we1 wv1 wm1 s) (bias be1 bv1 bm1 s) r o)

/-- The logits of sample `s`: the last layer has no clamp. -/
def logits (s : Fin 32) (r : Fin 1024) (o : Fin 10) : EReal :=
  affine (hidden1 x wm0 wv0 bm0 bv0 wm1 wv1 bm1 bv1 we0 be0 we1 be1 s) (weight wel wlv wlm s) (bias bel blv blm s) r o

/-- The whole result array `[32, 1024, 10]`: sample, row, class. -/
def result : (⟨3, ![32, 1024, 10]⟩ : Shape).Idx → EReal :=
  fun j => logits x wm0 wv0 bm0 bv0 wm1 wv1 bm1 bv1 wlm wlv blm blv we0 be0 we1 be1 wel bel (j 0) (j 1) (j 2)

end network

end Cert.Bnn

end
-- ==== Proof.Payload.lean ====
/-
  One layer of the kernel body, read at an index.

  The body computes each layer on whole blocks: the sample's noise block (a `[1, I, O]` window of the `[32, I, O]`
  noise array) is reshaped to `[I, O]`, scaled elementwise by `exp(½ · logvar)` and shifted by the mean; the bias
  row is built the same way and broadcast over the rows; the activations meet the sampled weights in one matrix
  product into a zero accumulator, which at an output index `(p, q)` is the sum over `k` of activation `(p, k)`
  times weight `(k, q)`.  The casts to a narrower float format are the identity on extended reals.
  Each lemma states one stored payload at an index as one layer of the specification, given what the noise
  blocks read (their hypotheses) and what the previous activation block reads.
-/
import proofs.«110567_j36532991820264_1_alg».proof.Proof.Gen.KernelIdeal.Skeleton
import proofs.«110567_j36532991820264_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.Bnn.Kernel

open Cert.KernelIdeal Cert.KernelIdeal.Gen
open Idealize.ShloMosaic Idealize.ShloMosaic.TcCoe Idealize.ShloMosaic.ValueIdx

/-! ### The first layer's product: operand indices, and the product at an index -/

/-- The left operand's row coordinate is the result's row. -/
theorem lhs_d1_0 (i : S1024x1024.Idx) (c : dot_S1024x784_S784x1024_S1024x1024_1_0_0_1_n_n.contr.Idx) :
    (dot_S1024x784_S784x1024_S1024x1024_1_0_0_1_n_n.lhsIdx i c 0).val = (i 0).val := by
  unfold DotDims.lhsIdx
  rw [dif_neg (show ¬(0 : Fin S1024x784.rank) ∈ dot_S1024x784_S784x1024_S1024x1024_1_0_0_1_n_n.lhsBatch by decide), dif_pos (show (0 : Fin S1024x784.rank) ∈ dot_S1024x784_S784x1024_S1024x1024_1_0_0_1_n_n.lhsNonContracting by decide)]
  rfl
/-- The left operand's column coordinate is the contraction position. -/
theorem lhs_d1_1 (i : S1024x1024.Idx) (c : dot_S1024x784_S784x1024_S1024x1024_1_0_0_1_n_n.contr.Idx) :
    (dot_S1024x784_S784x1024_S1024x1024_1_0_0_1_n_n.lhsIdx i c 1).val = (c ⟨0, by decide⟩).val :=
  dot_S1024x784_S784x1024_S1024x1024_1_0_0_1_n_n.lhsIdx_val_of_single rfl i c
/-- The right operand's row coordinate is the contraction position. -/
theorem rhs_d1_0 (i : S1024x1024.Idx) (c : dot_S1024x784_S784x1024_S1024x1024_1_0_0_1_n_n.contr.Idx) :
    (dot_S1024x784_S784x1024_S1024x1024_1_0_0_1_n_n.rhsIdx i c 0).val = (c ⟨0, by decide⟩).val :=
  dot_S1024x784_S784x1024_S1024x1024_1_0_0_1_n_n.rhsIdx_val_of_single rfl i c
/-- The right operand's column coordinate is the result's column. -/
theorem rhs_d1_1 (i : S1024x1024.Idx) (c : dot_S1024x784_S784x1024_S1024x1024_1_0_0_1_n_n.contr.Idx) :
    (dot_S1024x784_S784x1024_S1024x1024_1_0_0_1_n_n.rhsIdx i c 1).val = (i 1).val := by
  unfold DotDims.rhsIdx
  rw [dif_neg (show ¬(1 : Fin S784x1024.rank) ∈ dot_S1024x784_S784x1024_S1024x1024_1_0_0_1_n_n.rhsBatch by decide), dif_pos (show (1 : Fin S784x1024.rank) ∈ dot_S1024x784_S784x1024_S1024x1024_1_0_0_1_n_n.rhsNonContracting by decide)]
  rfl

/-- The product into the zero accumulator at `(p, q)`: the sum over `k` of left `(p, k)` times right `(k, q)`. -/
theorem matmul_d1_apply (l : FVec Ideal S1024x784 .bf16) (r : FVec Ideal S784x1024 .bf16) (p : Fin 1024) (q : Fin 1024) :
    matmul (F := Ideal) dot_S1024x784_S784x1024_S1024x1024_1_0_0_1_n_n none l r (constant (F := Ideal) S1024x1024 .f32 0x00000000#32) (ix2 p q)
      = ∑ k : Fin 784, l (ix2 p k) * r (ix2 k q) := by
  simp only [matmul]
  rw [Ideal.matmul_constant_zero_apply, ← Equiv.sum_comp (ValueIdx.contrEquiv1 dot_S1024x784_S784x1024_S1024x1024_1_0_0_1_n_n 784 rfl rfl).symm]
  refine Finset.sum_congr rfl fun k _ => ?_
  have hk := ValueIdx.contrEquiv1_symm_val dot_S1024x784_S784x1024_S1024x1024_1_0_0_1_n_n 784 rfl rfl k
  have el : dot_S1024x784_S784x1024_S1024x1024_1_0_0_1_n_n.lhsIdx (ix2 p q) ((ValueIdx.contrEquiv1 dot_S1024x784_S784x1024_S1024x1024_1_0_0_1_n_n 784 rfl rfl).symm k) = ix2 p k := funext fun a => Fin.ext (by
    match a with
    | ⟨0, _⟩ => exact lhs_d1_0 _ _
    | ⟨1, _⟩ => exact (lhs_d1_1 _ _).trans hk)
  have er : dot_S1024x784_S784x1024_S1024x1024_1_0_0_1_n_n.rhsIdx (ix2 p q) ((ValueIdx.contrEquiv1 dot_S1024x784_S784x1024_S1024x1024_1_0_0_1_n_n 784 rfl rfl).symm k) = ix2 k q := funext fun a => Fin.ext (by
    match a with
    | ⟨0, _⟩ => exact (rhs_d1_0 _ _).trans hk
    | ⟨1, _⟩ => exact rhs_d1_1 _ _)
  rw [el, er]

/-! ### The second layer's product: operand indices, and the product at an index -/

/-- The left operand's row coordinate is the result's row. -/
theorem lhs_d2_0 (i : S1024x1024.Idx) (c : dot_S1024x1024_S1024x1024_S1024x1024_1_0_0_1_n_n.contr.Idx) :
    (dot_S1024x1024_S1024x1024_S1024x1024_1_0_0_1_n_n.lhsIdx i c 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
/-- The left operand's column coordinate is the contraction position. -/
theorem lhs_d2_1 (i : S1024x1024.Idx) (c : dot_S1024x1024_S1024x1024_S1024x1024_1_0_0_1_n_n.contr.Idx) :
    (dot_S1024x1024_S1024x1024_S1024x1024_1_0_0_1_n_n.lhsIdx i c 1).val = (c ⟨0, by decide⟩).val :=
  dot_S1024x1024_S1024x1024_S1024x1024_1_0_0_1_n_n.lhsIdx_val_of_single rfl i c
/-- The right operand's row coordinate is the contraction position. -/
theorem rhs_d2_0 (i : S1024x1024.Idx) (c : dot_S1024x1024_S1024x1024_S1024x1024_1_0_0_1_n_n.contr.Idx) :
    (dot_S1024x1024_S1024x1024_S1024x1024_1_0_0_1_n_n.rhsIdx i c 0).val = (c ⟨0, by decide⟩).val :=
  dot_S1024x1024_S1024x1024_S1024x1024_1_0_0_1_n_n.rhsIdx_val_of_single rfl i c
/-- The right operand's column coordinate is the result's column. -/
theorem rhs_d2_1 (i : S1024x1024.Idx) (c : dot_S1024x1024_S1024x1024_S1024x1024_1_0_0_1_n_n.contr.Idx) :
    (dot_S1024x1024_S1024x1024_S1024x1024_1_0_0_1_n_n.rhsIdx i c 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The product into the zero accumulator at `(p, q)`: the sum over `k` of left `(p, k)` times right `(k, q)`. -/
theorem matmul_d2_apply (l : FVec Ideal S1024x1024 .bf16) (r : FVec Ideal S1024x1024 .bf16) (p : Fin 1024) (q : Fin 1024) :
    matmul (F := Ideal) dot_S1024x1024_S1024x1024_S1024x1024_1_0_0_1_n_n none l r (constant (F := Ideal) S1024x1024 .f32 0x00000000#32) (ix2 p q)
      = ∑ k : Fin 1024, l (ix2 p k) * r (ix2 k q) := by
  simp only [matmul]
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 p q) ((ValueIdx.contrEquiv1 dot_S1024x1024_S1024x1024_S1024x1024_1_0_0_1_n_n 1024 rfl rfl).symm k) = ix2 p k := funext fun a => Fin.ext (by
    match a with
    | ⟨0, _⟩ => exact lhs_d2_0 _ _
    | ⟨1, _⟩ => exact (lhs_d2_1 _ _).trans hk)
  have er : dot_S1024x1024_S1024x1024_S1024x1024_1_0_0_1_n_n.rhsIdx (ix2 p q) ((ValueIdx.contrEquiv1 dot_S1024x1024_S1024x1024_S1024x1024_1_0_0_1_n_n 1024 rfl rfl).symm k) = ix2 k q := funext fun a => Fin.ext (by
    match a with
    | ⟨0, _⟩ => exact (rhs_d2_0 _ _).trans hk
    | ⟨1, _⟩ => exact rhs_d2_1 _ _)
  rw [el, er]

/-! ### The last layer's product: operand indices, and the product at an index -/

/-- The left operand's row coordinate is the result's row. -/
theorem lhs_d3_0 (i : S1024x10.Idx) (c : dot_S1024x1024_S1024x10_S1024x10_1_0_0_1_n_n.contr.Idx) :
    (dot_S1024x1024_S1024x10_S1024x10_1_0_0_1_n_n.lhsIdx i c 0).val = (i 0).val := by
  unfold DotDims.lhsIdx
  rw [dif_neg (show ¬(0 : Fin S1024x1024.rank) ∈ dot_S1024x1024_S1024x10_S1024x10_1_0_0_1_n_n.lhsBatch by decide), dif_pos (show (0 : Fin S1024x1024.rank) ∈ dot_S1024x1024_S1024x10_S1024x10_1_0_0_1_n_n.lhsNonContracting by decide)]
  rfl
/-- The left operand's column coordinate is the contraction position. -/
theorem lhs_d3_1 (i : S1024x10.Idx) (c : dot_S1024x1024_S1024x10_S1024x10_1_0_0_1_n_n.contr.Idx) :
    (dot_S1024x1024_S1024x10_S1024x10_1_0_0_1_n_n.lhsIdx i c 1).val = (c ⟨0, by decide⟩).val :=
  dot_S1024x1024_S1024x10_S1024x10_1_0_0_1_n_n.lhsIdx_val_of_single rfl i c
/-- The right operand's row coordinate is the contraction position. -/
theorem rhs_d3_0 (i : S1024x10.Idx) (c : dot_S1024x1024_S1024x10_S1024x10_1_0_0_1_n_n.contr.Idx) :
    (dot_S1024x1024_S1024x10_S1024x10_1_0_0_1_n_n.rhsIdx i c 0).val = (c ⟨0, by decide⟩).val :=
  dot_S1024x1024_S1024x10_S1024x10_1_0_0_1_n_n.rhsIdx_val_of_single rfl i c
/-- The right operand's column coordinate is the result's column. -/
theorem rhs_d3_1 (i : S1024x10.Idx) (c : dot_S1024x1024_S1024x10_S1024x10_1_0_0_1_n_n.contr.Idx) :
    (dot_S1024x1024_S1024x10_S1024x10_1_0_0_1_n_n.rhsIdx i c 1).val = (i 1).val := by
  unfold DotDims.rhsIdx
  rw [dif_neg (show ¬(1 : Fin S1024x10.rank) ∈ dot_S1024x1024_S1024x10_S1024x10_1_0_0_1_n_n.rhsBatch by decide), dif_pos (show (1 : Fin S1024x10.rank) ∈ dot_S1024x1024_S1024x10_S1024x10_1_0_0_1_n_n.rhsNonContracting by decide)]
  rfl

/-- The product into the zero accumulator at `(p, q)`: the sum over `k` of left `(p, k)` times right `(k, q)`. -/
theorem matmul_d3_apply (l : FVec Ideal S1024x1024 .bf16) (r : FVec Ideal S1024x10 .bf16) (p : Fin 1024) (q : Fin 10) :
    matmul (F := Ideal) dot_S1024x1024_S1024x10_S1024x10_1_0_0_1_n_n none l r (constant (F := Ideal) S1024x10 .f32 0x00000000#32) (ix2 p q)
      = ∑ k : Fin 1024, l (ix2 p k) * r (ix2 k q) := by
  simp only [matmul]
  rw [Ideal.matmul_constant_zero_apply, ← Equiv.sum_comp (ValueIdx.contrEquiv1 dot_S1024x1024_S1024x10_S1024x10_1_0_0_1_n_n 1024 rfl rfl).symm]
  refine Finset.sum_congr rfl fun k _ => ?_
  have hk := ValueIdx.contrEquiv1_symm_val dot_S1024x1024_S1024x10_S1024x10_1_0_0_1_n_n 1024 rfl rfl k
  have el : dot_S1024x1024_S1024x10_S1024x10_1_0_0_1_n_n.lhsIdx (ix2 p q) ((ValueIdx.contrEquiv1 dot_S1024x1024_S1024x10_S1024x10_1_0_0_1_n_n 1024 rfl rfl).symm k) = ix2 p k := funext fun a => Fin.ext (by
    match a with
    | ⟨0, _⟩ => exact lhs_d3_0 _ _
    | ⟨1, _⟩ => exact (lhs_d3_1 _ _).trans hk)
  have er : dot_S1024x1024_S1024x10_S1024x10_1_0_0_1_n_n.rhsIdx (ix2 p q) ((ValueIdx.contrEquiv1 dot_S1024x1024_S1024x10_S1024x10_1_0_0_1_n_n 1024 rfl rfl).symm k) = ix2 k q := funext fun a => Fin.ext (by
    match a with
    | ⟨0, _⟩ => exact (rhs_d3_0 _ _).trans hk
    | ⟨1, _⟩ => exact rhs_d3_1 _ _)
  rw [el, er]

/-! ### The sampled weight block, the sampled bias row, and one affine layer over blocks -/

/-- The sampled weight block at `(i, o)`: the noise block's `(0, i, o)` times `exp(½ · logvar)` plus the mean. -/
theorem weight_block_apply {I O : Nat} (w0 : FVec Ideal ⟨3, ![1, I, O]⟩ .f32) (wv wm : FVec Ideal ⟨2, ![I, O]⟩ .f32)
    (hw : (⟨3, ![1, I, O]⟩ : Shape).ShapeCasts ⟨2, ![I, O]⟩) (i : Fin I) (o : Fin O) :
    addf (mulf (shapeCast ⟨2, ![I, O]⟩ w0 hw)
        (exp (mulf (broadcast ⟨2, ![I, O]⟩ (Scalar.ofBits (F := Ideal) .f32 0x3F000000#32)) wv))) wm (ix2 i o)
      = w0 (ix3 (0 : Fin 1) i o) * Ideal.exp (Cert.Bnn.half * wv (ix2 i o)) + wm (ix2 i o) := by
  show shapeCast ⟨2, ![I, O]⟩ w0 hw (ix2 i o)
      * Ideal.exp (FloatOps.ofBits (F := Ideal) .f32 0x3F000000#32 * wv (ix2 i o)) + wm (ix2 i o) = _
  rw [shapeCast_1ab_ab_apply, Ideal.ofBits_def]

/-- The sampled bias row at `(u, o)`: the noise row's `(0, u, o)` times `exp(½ · logvar)` plus the mean. -/
theorem bias_row_apply {O : Nat} (b0 : FVec Ideal ⟨3, ![1, 1, O]⟩ .f32) (bv bm : FVec Ideal ⟨1, ![O]⟩ .f32)
    (hb0 : (⟨3, ![1, 1, O]⟩ : Shape).ShapeCasts ⟨2, ![1, O]⟩) (hb1 : (⟨1, ![O]⟩ : Shape).ShapeCasts ⟨2, ![1, O]⟩)
    (u : Fin 1) (o : Fin O) :
    addf (mulf (shapeCast ⟨2, ![1, O]⟩ b0 hb0)
        (shapeCast ⟨2, ![1, O]⟩ (exp (mulf (broadcast ⟨1, ![O]⟩ (Scalar.ofBits (F := Ideal) .f32 0x3F000000#32)) bv)) hb1))
        (shapeCast ⟨2, ![1, O]⟩ bm hb1) (ix2 u o)
      = b0 (ix3 (0 : Fin 1) u o) * Ideal.exp (Cert.Bnn.half * bv (ix1 o)) + bm (ix1 o) := by
  show shapeCast ⟨2, ![1, O]⟩ b0 hb0 (ix2 u o)
      * shapeCast ⟨2, ![1, O]⟩ (exp (mulf (broadcast ⟨1, ![O]⟩ (Scalar.ofBits (F := Ideal) .f32 0x3F000000#32)) bv)) hb1 (ix2 u o)
      + shapeCast ⟨2, ![1, O]⟩ bm hb1 (ix2 u o) = _
  rw [shapeCast_1ab_ab_apply, shapeCast_a_1a_apply, shapeCast_a_1a_apply]
  show _ * Ideal.exp (FloatOps.ofBits (F := Ideal) .f32 0x3F000000#32 * bv (ix1 o)) + _ = _
  rw [Ideal.ofBits_def]

/-- One affine layer over blocks at `(p, q)`: the product of the activation block with the sampled weight block, plus
    the sampled bias row broadcast over the rows, is the specification's affine layer, given the matrix product at an
    index (`hD`), what the activation block reads (`ha`) and what the two noise blocks read (`hwe`, `hbe`). -/
theorem preact_apply {B I O : Nat} (D : DotDims ⟨2, ![B, I]⟩ ⟨2, ![I, O]⟩ ⟨2, ![B, O]⟩)
    (hD : ∀ (l : FVec Ideal ⟨2, ![B, I]⟩ .bf16) (r : FVec Ideal ⟨2, ![I, O]⟩ .bf16) (p : Fin B) (q : Fin O),
      matmul (F := Ideal) D none l r (constant (F := Ideal) ⟨2, ![B, O]⟩ .f32 0x00000000#32) (ix2 p q)
        = ∑ k : Fin I, l (ix2 p k) * r (ix2 k q))
    (w0 : FVec Ideal ⟨3, ![1, I, O]⟩ .f32) (wv wm : FVec Ideal ⟨2, ![I, O]⟩ .f32)
    (b0 : FVec Ideal ⟨3, ![1, 1, O]⟩ .f32) (bv bm : FVec Ideal ⟨1, ![O]⟩ .f32) (x : FVec Ideal ⟨2, ![B, I]⟩ .f32)
    (hw : (⟨3, ![1, I, O]⟩ : Shape).ShapeCasts ⟨2, ![I, O]⟩)
    (hb0 : (⟨3, ![1, 1, O]⟩ : Shape).ShapeCasts ⟨2, ![1, O]⟩) (hb1 : (⟨1, ![O]⟩ : Shape).ShapeCasts ⟨2, ![1, O]⟩)
    (hbc : (⟨2, ![1, O]⟩ : Shape).Broadcasts ⟨2, ![B, O]⟩) (ht : FTy.bf16.bits < FTy.f32.bits)
    (a : Fin B → Fin I → EReal) (ha : ∀ (r : Fin B) (i : Fin I), x (ix2 r i) = a r i)
    (we : (⟨3, ![32, I, O]⟩ : Shape).Idx → EReal) (be : (⟨3, ![32, 1, O]⟩ : Shape).Idx → EReal) (s : Fin 32)
    (hwe : ∀ (i : Fin I) (o : Fin O), w0 (ix3 (0 : Fin 1) i o) = we (ix3 s i o))
    (hbe : ∀ o : Fin O, b0 (ix3 (0 : Fin 1) (0 : Fin 1) o) = be (ix3 s (0 : Fin 1) o))
    (p : Fin B) (q : Fin O) :
    addf
      (matmul (F := Ideal) D none (truncf .bf16 x ht)
        (truncf .bf16 (addf (mulf (shapeCast ⟨2, ![I, O]⟩ w0 hw)
          (exp (mulf (broadcast ⟨2, ![I, O]⟩ (Scalar.ofBits (F := Ideal) .f32 0x3F000000#32)) wv))) wm) ht)
        (constant (F := Ideal) ⟨2, ![B, O]⟩ .f32 0x00000000#32))
      (broadcastTo ⟨2, ![B, O]⟩
        (addf (mulf (shapeCast ⟨2, ![1, O]⟩ b0 hb0)
          (shapeCast ⟨2, ![1, O]⟩ (exp (mulf (broadcast ⟨1, ![O]⟩ (Scalar.ofBits (F := Ideal) .f32 0x3F000000#32)) bv)) hb1))
          (shapeCast ⟨2, ![1, O]⟩ bm hb1)) hbc) (ix2 p q)
      = Cert.Bnn.affine a (Cert.Bnn.weight we wv wm s) (Cert.Bnn.bias be bv bm s) p q := by
  refine (addf_apply _ _ _).trans ?_
  unfold Cert.Bnn.affine
  refine congrArg₂ (· + ·) ?_ ?_
  · -- the product: summand by summand
    refine (hD _ _ p q).trans (Finset.sum_congr rfl fun k _ => ?_)
    refine congrArg₂ (· * ·) (ha p k) ?_
    refine (weight_block_apply w0 wv wm hw k q).trans ?_
    rw [hwe]
    rfl
  · -- the bias row, read at its one row
    refine (broadcastTo_1b_ab_apply _ hbc p q).trans ?_
    refine (bias_row_apply b0 bv bm hb0 hb1 (0 : Fin 1) q).trans ?_
    rw [hbe]
    rfl

/-! ### The three stored payloads -/

/-- The first stored payload (the first hidden activation block) at row `p`, feature `q`. -/
theorem pay2_apply
    (v0 : Vec Ideal S1x784x1024 .f32) (v2 v7 : Vec Ideal S784x1024 .f32) (v9 : Vec Ideal S1x1x1024 .f32)
    (v11 v17 : Vec Ideal S1024 .f32) (v20 : Vec Ideal S1024x784 .f32)
    (we : (⟨3, ![32, 784, 1024]⟩ : Shape).Idx → EReal) (be : (⟨3, ![32, 1, 1024]⟩ : Shape).Idx → EReal) (s : Fin 32)
    (hwe : ∀ (i : Fin 784) (o : Fin 1024), v0 (ix3 (0 : Fin 1) i o) = we (ix3 s i o))
    (hbe : ∀ o : Fin 1024, v9 (ix3 (0 : Fin 1) (0 : Fin 1) o) = be (ix3 s (0 : Fin 1) o))
    (p q : Fin 1024) :
    k0_pay2 (F := Ideal) v0 v2 v7 v9 v11 v17 v20 (ix2 p q)
      = Cert.Bnn.hidden0 v20 v7 v2 v17 v11 we be s p q := by
  unfold k0_pay2
  refine (congrFun (shapeCast_self _ _) (ix2 p q)).trans ?_
  refine (maximumf_apply _ _ _).trans ?_
  unfold Cert.Bnn.hidden0 Cert.Bnn.relu
  refine congrArg₂ max ?_ ((broadcast_apply _ _).trans (Ideal.ofBits_def _))
  exact preact_apply dot_S1024x784_S784x1024_S1024x1024_1_0_0_1_n_n matmul_d1_apply v0 v2 v7 v9 v11 v17 v20 _ _ _ _ _
    (fun r i => v20 (ix2 r i)) (fun _ _ => rfl) we be s hwe hbe p q

/-- The second stored payload (the second hidden activation block) at row `p`, feature `q`, over whatever
    activation `a` the scratch block reads. -/
theorem pay4_apply
    (v31 : Vec Ideal S1x1024x1024 .f32) (v33 v38 : Vec Ideal S1024x1024 .f32) (v40 : Vec Ideal S1x1x1024 .f32)
    (v42 v48 : Vec Ideal S1024 .f32) (v51 : Vec Ideal S1024x1024 .f32)
    (a : Fin 1024 → Fin 1024 → EReal) (ha : ∀ (r i : Fin 1024), v51 (ix2 r i) = a r i)
    (we : (⟨3, ![32, 1024, 1024]⟩ : Shape).Idx → EReal) (be : (⟨3, ![32, 1, 1024]⟩ : Shape).Idx → EReal) (s : Fin 32)
    (hwe : ∀ (i o : Fin 1024), v31 (ix3 (0 : Fin 1) i o) = we (ix3 s i o))
    (hbe : ∀ o : Fin 1024, v40 (ix3 (0 : Fin 1) (0 : Fin 1) o) = be (ix3 s (0 : Fin 1) o))
    (p q : Fin 1024) :
    k0_pay4 (F := Ideal) (k0_pay3 v31) v33 v38 v40 v42 v48 v51 (ix2 p q)
      = Cert.Bnn.relu (Cert.Bnn.affine a (Cert.Bnn.weight we v33 v38 s) (Cert.Bnn.bias be v42 v48 s) p q) := by
  unfold k0_pay4 k0_pay3
  refine (congrFun (shapeCast_self _ _) (ix2 p q)).trans ?_
  refine (maximumf_apply _ _ _).trans ?_
  unfold Cert.Bnn.relu
  refine congrArg₂ max ?_ ((broadcast_apply _ _).trans (Ideal.ofBits_def _))
  exact preact_apply dot_S1024x1024_S1024x1024_S1024x1024_1_0_0_1_n_n matmul_d2_apply v31 v33 v38 v40 v42 v48 v51 _ _ _ _ _
    a ha we be s hwe hbe p q

/-- The last stored payload (the logits block, with its leading unit axis) at row `p`, class `q`. -/
theorem pay1_apply
    (v62 : Vec Ideal S1x1024x10 .f32) (v64 v69 : Vec Ideal S1024x10 .f32) (v71 : Vec Ideal S1x1x10 .f32)
    (v73 v79 : Vec Ideal S10 .f32) (v82 : Vec Ideal S1024x1024 .f32)
    (a : Fin 1024 → Fin 1024 → EReal) (ha : ∀ (r i : Fin 1024), v82 (ix2 r i) = a r i)
    (we : (⟨3, ![32, 1024, 10]⟩ : Shape).Idx → EReal) (be : (⟨3, ![32, 1, 10]⟩ : Shape).Idx → EReal) (s : Fin 32)
    (hwe : ∀ (i : Fin 1024) (o : Fin 10), v62 (ix3 (0 : Fin 1) i o) = we (ix3 s i o))
    (hbe : ∀ o : Fin 10, v71 (ix3 (0 : Fin 1) (0 : Fin 1) o) = be (ix3 s (0 : Fin 1) o))
    (p : Fin 1024) (q : Fin 10) :
    k0_pay1 (F := Ideal) (k0_pay5 v62 v64) v69 v71 v73 v79 v82 (ix3 (0 : Fin 1) p q)
      = Cert.Bnn.affine a (Cert.Bnn.weight we v64 v69 s) (Cert.Bnn.bias be v73 v79 s) p q := by
  unfold k0_pay1 k0_pay5
  refine (shapeCast_ab_1ab_apply _ _ (0 : Fin 1) p q).trans ?_
  exact preact_apply dot_S1024x1024_S1024x10_S1024x10_1_0_0_1_n_n matmul_d3_apply v62 v64 v69 v71 v73 v79 v82 _ _ _ _ _
    a ha we be s hwe hbe p q

end Cert.Bnn.Kernel

end
-- ==== Proof.Point.lean ====
/-
  The value one grid point writes, as the specification at that sample.

  Grid point `s` handles weight sample `s`: the thirteen shared tensors come in whole (their blocks ARE the
  arrays), while each of the six noise tensors comes in as its slab `s` (a block with a leading unit axis whose
  entry `(0, i, o)` is the array's entry `(s, i, o)`).  Chaining the three layers — the first activation feeds
  the second through the scratch block, the second feeds the last — the entry `(0, p, q)` of the output block is
  the specification's `result` at `(s, p, q)`.
-/
import proofs.«110567_j36532991820264_1_alg».proof.Proof.Block
import proofs.«110567_j36532991820264_1_alg».proof.Proof.Payload
import proofs.«110567_j36532991820264_1_alg».proof.Proof.Spec

noncomputable section

namespace Cert.Bnn.Kernel

open Cert.KernelIdeal Cert.KernelIdeal.Gen
open Idealize.ShloMosaic Idealize.ShloMosaic.TcCoe Idealize.ShloMosaic.ValueIdx

/-- The output block's entry `(0, p, q)` at the point of sample `s`, from blocks that read the arrays as the
    window geometry says (`h13` … `h18`: slab `s` of each noise array; the shared tensors whole). -/
theorem point_value
    (x0 : Vec Ideal S1024x784 .f32) (x1 x2 : Vec Ideal S784x1024 .f32) (x3 x4 : Vec Ideal S1024 .f32)
    (x5 x6 : Vec Ideal S1024x1024 .f32) (x7 x8 : Vec Ideal S1024 .f32) (x9 x10 : Vec Ideal S1024x10 .f32)
    (x11 x12 : Vec Ideal S10 .f32)
    (x13 : Vec Ideal S1x784x1024 .f32) (x14 : Vec Ideal S1x1x1024 .f32) (x15 : Vec Ideal S1x1024x1024 .f32)
    (x16 : Vec Ideal S1x1x1024 .f32) (x17 : Vec Ideal S1x1024x10 .f32) (x18 : Vec Ideal S1x1x10 .f32)
    (X13 : Vec Ideal S32x784x1024 .f32) (X14 : Vec Ideal S32x1x1024 .f32) (X15 : Vec Ideal S32x1024x1024 .f32)
    (X16 : Vec Ideal S32x1x1024 .f32) (X17 : Vec Ideal S32x1024x10 .f32) (X18 : Vec Ideal S32x1x10 .f32)
    (s : Fin 32)
    (h13 : ∀ (i : Fin 784) (o : Fin 1024), x13 (ix3 (0 : Fin 1) i o) = X13 (ix3 s i o))
    (h14 : ∀ o : Fin 1024, x14 (ix3 (0 : Fin 1) (0 : Fin 1) o) = X14 (ix3 s (0 : Fin 1) o))
    (h15 : ∀ (i o : Fin 1024), x15 (ix3 (0 : Fin 1) i o) = X15 (ix3 s i o))
    (h16 : ∀ o : Fin 1024, x16 (ix3 (0 : Fin 1) (0 : Fin 1) o) = X16 (ix3 s (0 : Fin 1) o))
    (h17 : ∀ (i : Fin 1024) (o : Fin 10), x17 (ix3 (0 : Fin 1) i o) = X17 (ix3 s i o))
    (h18 : ∀ o : Fin 10, x18 (ix3 (0 : Fin 1) (0 : Fin 1) o) = X18 (ix3 s (0 : Fin 1) o))
    (p : Fin 1024) (q : Fin 10) :
    k0_pay1 (F := Ideal) (k0_pay5 x17 x10) x9 x18 x12 x11 (act1 x0 x1 x2 x3 x4 x5 x6 x7 x8 x13 x14 x15 x16) (ix3 (0 : Fin 1) p q)
      = Cert.Bnn.result x0 x1 x2 x3 x4 x5 x6 x7 x8 x9 x10 x11 x12 X13 X14 X15 X16 X17 X18 (ix3 s p q) := by
  have ha0 : ∀ (r i : Fin 1024), act0 x0 x1 x2 x3 x4 x13 x14 (ix2 r i)
      = Cert.Bnn.hidden0 x0 x1 x2 x3 x4 X13 X14 s r i :=
    fun r i => pay2_apply x13 x2 x1 x14 x4 x3 x0 X13 X14 s h13 h14 r i
  have ha1 : ∀ (r i : Fin 1024), act1 x0 x1 x2 x3 x4 x5 x6 x7 x8 x13 x14 x15 x16 (ix2 r i)
      = Cert.Bnn.hidden1 x0 x1 x2 x3 x4 x5 x6 x7 x8 X13 X14 X15 X16 s r i :=
    fun r i => pay4_apply x15 x6 x5 x16 x8 x7 (act0 x0 x1 x2 x3 x4 x13 x14)
      (Cert.Bnn.hidden0 x0 x1 x2 x3 x4 X13 X14 s) ha0 X15 X16 s h15 h16 r i
  exact pay1_apply x17 x10 x9 x18 x12 x11 (act1 x0 x1 x2 x3 x4 x5 x6 x7 x8 x13 x14 x15 x16)
    (Cert.Bnn.hidden1 x0 x1 x2 x3 x4 x5 x6 x7 x8 X13 X14 X15 X16 s) ha1 X17 X18 s h17 h18 p q

/-- The same with the shared tensors' blocks identified with their arrays: the output block's entry `(0, p, q)`
    at the point of sample `s` is `result` of the nineteen ARRAYS at `(s, p, q)`. -/
theorem point_value_at
    (x0 : Vec Ideal S1024x784 .f32) (x1 : Vec Ideal S784x1024 .f32) (x2 : Vec Ideal S784x1024 .f32) (x3 : Vec Ideal S1024 .f32) (x4 : Vec Ideal S1024 .f32) (x5 : Vec Ideal S1024x1024 .f32) (x6 : Vec Ideal S1024x1024 .f32) (x7 : Vec Ideal S1024 .f32) (x8 : Vec Ideal S1024 .f32) (x9 : Vec Ideal S1024x10 .f32) (x10 : Vec Ideal S1024x10 .f32) (x11 : Vec Ideal S10 .f32) (x12 : Vec Ideal S10 .f32) (x13 : Vec Ideal S1x784x1024 .f32) (x14 : Vec Ideal S1x1x1024 .f32) (x15 : Vec Ideal S1x1024x1024 .f32) (x16 : Vec Ideal S1x1x1024 .f32) (x17 : Vec Ideal S1x1024x10 .f32) (x18 : Vec Ideal S1x1x10 .f32)
    (X0 : Vec Ideal S1024x784 .f32) (X1 : Vec Ideal S784x1024 .f32) (X2 : Vec Ideal S784x1024 .f32) (X3 : Vec Ideal S1024 .f32) (X4 : Vec Ideal S1024 .f32) (X5 : Vec Ideal S1024x1024 .f32) (X6 : Vec Ideal S1024x1024 .f32) (X7 : Vec Ideal S1024 .f32) (X8 : Vec Ideal S1024 .f32) (X9 : Vec Ideal S1024x10 .f32) (X10 : Vec Ideal S1024x10 .f32) (X11 : Vec Ideal S10 .f32) (X12 : Vec Ideal S10 .f32) (X13 : Vec Ideal S32x784x1024 .f32) (X14 : Vec Ideal S32x1x1024 .f32) (X15 : Vec Ideal S32x1024x1024 .f32) (X16 : Vec Ideal S32x1x1024 .f32) (X17 : Vec Ideal S32x1024x10 .f32) (X18 : Vec Ideal S32x1x10 .f32)
    (s : Fin 32) (h0 : x0 = X0) (h1 : x1 = X1) (h2 : x2 = X2) (h3 : x3 = X3) (h4 : x4 = X4) (h5 : x5 = X5) (h6 : x6 = X6) (h7 : x7 = X7) (h8 : x8 = X8) (h9 : x9 = X9) (h10 : x10 = X10) (h11 : x11 = X11) (h12 : x12 = X12)
    (h13 : ∀ (i : Fin 784) (o : Fin 1024), x13 (ix3 (0 : Fin 1) i o) = X13 (ix3 s i o))
    (h14 : ∀ o : Fin 1024, x14 (ix3 (0 : Fin 1) (0 : Fin 1) o) = X14 (ix3 s (0 : Fin 1) o))
    (h15 : ∀ (i o : Fin 1024), x15 (ix3 (0 : Fin 1) i o) = X15 (ix3 s i o))
    (h16 : ∀ o : Fin 1024, x16 (ix3 (0 : Fin 1) (0 : Fin 1) o) = X16 (ix3 s (0 : Fin 1) o))
    (h17 : ∀ (i : Fin 1024) (o : Fin 10), x17 (ix3 (0 : Fin 1) i o) = X17 (ix3 s i o))
    (h18 : ∀ o : Fin 10, x18 (ix3 (0 : Fin 1) (0 : Fin 1) o) = X18 (ix3 s (0 : Fin 1) o))
    (p : Fin 1024) (q : Fin 10) :
    k0_pay1 (F := Ideal) (k0_pay5 x17 x10) x9 x18 x12 x11 (act1 x0 x1 x2 x3 x4 x5 x6 x7 x8 x13 x14 x15 x16) (ix3 (0 : Fin 1) p q)
      = Cert.Bnn.result X0 X1 X2 X3 X4 X5 X6 X7 X8 X9 X10 X11 X12 X13 X14 X15 X16 X17 X18 (ix3 s p q) := by
  subst h0 h1 h2 h3 h4 h5 h6 h7 h8 h9 h10 h11 h12
  exact point_value x0 x1 x2 x3 x4 x5 x6 x7 x8 x9 x10 x11 x12 x13 x14 x15 x16 x17 x18 X13 X14 X15 X16 X17 X18 s h13 h14 h15 h16 h17 h18 p q

end Cert.Bnn.Kernel

end
-- ==== Proof.Final.lean ====
/-
  From blocks to the array, and the kernel's run read as the specification.

  The grid has one point per weight sample.  The thirteen shared tensors are staged whole at every point (block
  index 0 on every axis), and the six noise tensors and the output are staged by slabs: point `t` sees slab `t`
  along the leading axis (block index `(t, 0, 0)`).  So what point `t` writes back is slab `t` of the
  specification's `result` of the argument arrays, the 32 slabs tile the `[32, 1024, 10]` result array, and after
  the run the array is `result` itself.
-/
import proofs.«110567_j36532991820264_1_alg».proof.Proof.Gen.KernelIdeal.Value
import proofs.«110567_j36532991820264_1_alg».proof.Proof.Point

set_option maxRecDepth 16384

noncomputable section

namespace Cert.Bnn.Kernel

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The grid has 32 points. -/
theorem points : cfg0.N = 32 := N_0

/-- The weight sample a grid point handles. -/
abbrev smp (t : Fin cfg0.N) : Fin 32 := ⟨t.val, points ▸ t.isLt⟩

/-- The specification's result of the argument arrays as launched, on core `c`. -/
abbrev spec (c : Dev nD) : Vec Ideal S32x1024x10 .f32 :=
  Cert.Bnn.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

/-! ## The printed index maps, decided over the 32 points -/

theorem idx_0 : ∀ t : Fin cfg0.N, win0_0.index t (0 : Fin 2) = 0 ∧ win0_0.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 1) = 0 :=
  (by decide +kernel : ∀ t : Fin grid0.N, _)
theorem idx_4 : ∀ t : Fin cfg0.N, win0_4.index t (0 : Fin 1) = 0 :=
  (by decide +kernel : ∀ t : Fin grid0.N, _)
theorem idx_5 : ∀ t : Fin cfg0.N, win0_5.index t (0 : Fin 2) = 0 ∧ win0_5.index t (1 : Fin 2) = 0 :=
  (by decide +kernel : ∀ t : Fin grid0.N, _)
theorem idx_6 : ∀ t : Fin cfg0.N, win0_6.index t (0 : Fin 2) = 0 ∧ win0_6.index t (1 : Fin 2) = 0 :=
  (by decide +kernel : ∀ t : Fin grid0.N, _)
theorem idx_7 : ∀ t : Fin cfg0.N, win0_7.index t (0 : Fin 1) = 0 :=
  (by decide +kernel : ∀ t : Fin grid0.N, _)
theorem idx_8 : ∀ t : Fin cfg0.N, win0_8.index t (0 : Fin 1) = 0 :=
  (by decide +kernel : ∀ t : Fin grid0.N, _)
theorem idx_9 : ∀ t : Fin cfg0.N, win0_9.index t (0 : Fin 2) = 0 ∧ win0_9.index t (1 : Fin 2) = 0 :=
  (by decide +kernel : ∀ t : Fin grid0.N, _)
theorem idx_10 : ∀ t : Fin cfg0.N, win0_10.index t (0 : Fin 2) = 0 ∧ win0_10.index t (1 : Fin 2) = 0 :=
  (by decide +kernel : ∀ t : Fin grid0.N, _)
theorem idx_11 : ∀ t : Fin cfg0.N, win0_11.index t (0 : Fin 1) = 0 :=
  (by decide +kernel : ∀ t : Fin grid0.N, _)
theorem idx_12 : ∀ t : Fin cfg0.N, win0_12.index t (0 : Fin 1) = 0 :=
  (by decide +kernel : ∀ t : Fin grid0.N, _)
theorem idx_13 : ∀ t : Fin cfg0.N, win0_13.index t (0 : Fin 3) = t.val ∧ win0_13.index t (1 : Fin 3) = 0 ∧ win0_13.index t (2 : Fin 3) = 0 :=
  (by decide +kernel : ∀ t : Fin grid0.N, _)
theorem idx_14 : ∀ t : Fin cfg0.N, win0_14.index t (0 : Fin 3) = t.val ∧ win0_14.index t (1 : Fin 3) = 0 ∧ win0_14.index t (2 : Fin 3) = 0 :=
  (by decide +kernel : ∀ t : Fin grid0.N, _)
theorem idx_15 : ∀ t : Fin cfg0.N, win0_15.index t (0 : Fin 3) = t.val ∧ win0_15.index t (1 : Fin 3) = 0 ∧ win0_15.index t (2 : Fin 3) = 0 :=
  (by decide +kernel : ∀ t : Fin grid0.N, _)
theorem idx_16 : ∀ t : Fin cfg0.N, win0_16.index t (0 : Fin 3) = t.val ∧ win0_16.index t (1 : Fin 3) = 0 ∧ win0_16.index t (2 : Fin 3) = 0 :=
  (by decide +kernel : ∀ t : Fin grid0.N, _)
theorem idx_17 : ∀ t : Fin cfg0.N, win0_17.index t (0 : Fin 3) = t.val ∧ win0_17.index t (1 : Fin 3) = 0 ∧ win0_17.index t (2 : Fin 3) = 0 :=
  (by decide +kernel : ∀ t : Fin grid0.N, _)
theorem idx_18 : ∀ t : Fin cfg0.N, win0_18.index t (0 : Fin 3) = t.val ∧ win0_18.index t (1 : Fin 3) = 0 ∧ win0_18.index t (2 : Fin 3) = 0 :=
  (by decide +kernel : ∀ t : Fin grid0.N, _)
theorem idx_19 : ∀ t : Fin cfg0.N, win0_19.index t (0 : Fin 3) = t.val ∧ win0_19.index t (1 : Fin 3) = 0 ∧ win0_19.index t (2 : Fin 3) = 0 :=
  (by decide +kernel : ∀ t : Fin grid0.N, _)

/-! ## A shared tensor's block is the whole array -/

theorem whole_0 (c : Dev nD) (t : Fin cfg0.N) : iblk m c 0 t = m ((c : Thread nD τ).loc main_arg0) := by
  obtain ⟨e0, e1⟩ := idx_0 t
  funext y
  show V m c main_arg0 (((cfg0.win 0).blk t).view.emb y) = m ((c : Thread nD τ).loc main_arg0) y
  refine congrArg (m ((c : Thread nD τ).loc main_arg0)) (funext fun a => Fin.ext ?_)
  match a with
  | ⟨0, _⟩ => show win0_0.index t (0 : Fin 2) * 1024 + 1 * (y 0).val = (y 0).val; omega
  | ⟨1, _⟩ => show win0_0.index t (1 : Fin 2) * 784 + 1 * (y 1).val = (y 1).val; omega
theorem whole_1 (c : Dev nD) (t : Fin cfg0.N) : iblk m c 1 t = m ((c : Thread nD τ).loc main_arg1) := by
  obtain ⟨e0, e1⟩ := idx_1 t
  funext y
  show V m c main_arg1 (((cfg0.win 1).blk t).view.emb y) = m ((c : Thread nD τ).loc main_arg1) y
  refine congrArg (m ((c : Thread nD τ).loc main_arg1)) (funext fun a => Fin.ext ?_)
  match a with
  | ⟨0, _⟩ => show win0_1.index t (0 : Fin 2) * 784 + 1 * (y 0).val = (y 0).val; omega
  | ⟨1, _⟩ => show win0_1.index t (1 : Fin 2) * 1024 + 1 * (y 1).val = (y 1).val; omega
theorem whole_2 (c : Dev nD) (t : Fin cfg0.N) : iblk m c 2 t = m ((c : Thread nD τ).loc main_arg2) := by
  obtain ⟨e0, e1⟩ := idx_2 t
  funext y
  show V m c main_arg2 (((cfg0.win 2).blk t).view.emb y) = m ((c : Thread nD τ).loc main_arg2) y
  refine congrArg (m ((c : Thread nD τ).loc main_arg2)) (funext fun a => Fin.ext ?_)
  match a with
  | ⟨0, _⟩ => show win0_2.index t (0 : Fin 2) * 784 + 1 * (y 0).val = (y 0).val; omega
  | ⟨1, _⟩ => show win0_2.index t (1 : Fin 2) * 1024 + 1 * (y 1).val = (y 1).val; omega
theorem whole_3 (c : Dev nD) (t : Fin cfg0.N) : iblk m c 3 t = m ((c : Thread nD τ).loc main_arg3) := by
  have e0 := idx_3 t
  funext y
  show V m c main_arg3 (((cfg0.win 3).blk t).view.emb y) = m ((c : Thread nD τ).loc main_arg3) y
  refine congrArg (m ((c : Thread nD τ).loc main_arg3)) (funext fun a => Fin.ext ?_)
  match a with
  | ⟨0, _⟩ => show win0_3.index t (0 : Fin 1) * 1024 + 1 * (y 0).val = (y 0).val; omega
theorem whole_4 (c : Dev nD) (t : Fin cfg0.N) : iblk m c 4 t = m ((c : Thread nD τ).loc main_arg4) := by
  have e0 := idx_4 t
  funext y
  show V m c main_arg4 (((cfg0.win 4).blk t).view.emb y) = m ((c : Thread nD τ).loc main_arg4) y
  refine congrArg (m ((c : Thread nD τ).loc main_arg4)) (funext fun a => Fin.ext ?_)
  match a with
  | ⟨0, _⟩ => show win0_4.index t (0 : Fin 1) * 1024 + 1 * (y 0).val = (y 0).val; omega
theorem whole_5 (c : Dev nD) (t : Fin cfg0.N) : iblk m c 5 t = m ((c : Thread nD τ).loc main_arg5) := by
  obtain ⟨e0, e1⟩ := idx_5 t
  funext y
  show V m c main_arg5 (((cfg0.win 5).blk t).view.emb y) = m ((c : Thread nD τ).loc main_arg5) y
  refine congrArg (m ((c : Thread nD τ).loc main_arg5)) (funext fun a => Fin.ext ?_)
  match a with
  | ⟨0, _⟩ => show win0_5.index t (0 : Fin 2) * 1024 + 1 * (y 0).val = (y 0).val; omega
  | ⟨1, _⟩ => show win0_5.index t (1 : Fin 2) * 1024 + 1 * (y 1).val = (y 1).val; omega
theorem whole_6 (c : Dev nD) (t : Fin cfg0.N) : iblk m c 6 t = m ((c : Thread nD τ).loc main_arg6) := by
  obtain ⟨e0, e1⟩ := idx_6 t
  funext y
  show V m c main_arg6 (((cfg0.win 6).blk t).view.emb y) = m ((c : Thread nD τ).loc main_arg6) y
  refine congrArg (m ((c : Thread nD τ).loc main_arg6)) (funext fun a => Fin.ext ?_)
  match a with
  | ⟨0, _⟩ => show win0_6.index t (0 : Fin 2) * 1024 + 1 * (y 0).val = (y 0).val; omega
  | ⟨1, _⟩ => show win0_6.index t (1 : Fin 2) * 1024 + 1 * (y 1).val = (y 1).val; omega
theorem whole_7 (c : Dev nD) (t : Fin cfg0.N) : iblk m c 7 t = m ((c : Thread nD τ).loc main_arg7) := by
  have e0 := idx_7 t
  funext y
  show V m c main_arg7 (((cfg0.win 7).blk t).view.emb y) = m ((c : Thread nD τ).loc main_arg7) y
  refine congrArg (m ((c : Thread nD τ).loc main_arg7)) (funext fun a => Fin.ext ?_)
  match a with
  | ⟨0, _⟩ => show win0_7.index t (0 : Fin 1) * 1024 + 1 * (y 0).val = (y 0).val; omega
theorem whole_8 (c : Dev nD) (t : Fin cfg0.N) : iblk m c 8 t = m ((c : Thread nD τ).loc main_arg8) := by
  have e0 := idx_8 t
  funext y
  show V m c main_arg8 (((cfg0.win 8).blk t).view.emb y) = m ((c : Thread nD τ).loc main_arg8) y
  refine congrArg (m ((c : Thread nD τ).loc main_arg8)) (funext fun a => Fin.ext ?_)
  match a with
  | ⟨0, _⟩ => show win0_8.index t (0 : Fin 1) * 1024 + 1 * (y 0).val = (y 0).val; omega
theorem whole_9 (c : Dev nD) (t : Fin cfg0.N) : iblk m c 9 t = m ((c : Thread nD τ).loc main_arg9) := by
  obtain ⟨e0, e1⟩ := idx_9 t
  funext y
  show V m c main_arg9 (((cfg0.win 9).blk t).view.emb y) = m ((c : Thread nD τ).loc main_arg9) y
  refine congrArg (m ((c : Thread nD τ).loc main_arg9)) (funext fun a => Fin.ext ?_)
  match a with
  | ⟨0, _⟩ => show win0_9.index t (0 : Fin 2) * 1024 + 1 * (y 0).val = (y 0).val; omega
  | ⟨1, _⟩ => show win0_9.index t (1 : Fin 2) * 10 + 1 * (y 1).val = (y 1).val; omega
theorem whole_10 (c : Dev nD) (t : Fin cfg0.N) : iblk m c 10 t = m ((c : Thread nD τ).loc main_arg10) := by
  obtain ⟨e0, e1⟩ := idx_10 t
  funext y
  show V m c main_arg10 (((cfg0.win 10).blk t).view.emb y) = m ((c : Thread nD τ).loc main_arg10) y
  refine congrArg (m ((c : Thread nD τ).loc main_arg10)) (funext fun a => Fin.ext ?_)
  match a with
  | ⟨0, _⟩ => show win0_10.index t (0 : Fin 2) * 1024 + 1 * (y 0).val = (y 0).val; omega
  | ⟨1, _⟩ => show win0_10.index t (1 : Fin 2) * 10 + 1 * (y 1).val = (y 1).val; omega
theorem whole_11 (c : Dev nD) (t : Fin cfg0.N) : iblk m c 11 t = m ((c : Thread nD τ).loc main_arg11) := by
  have e0 := idx_11 t
  funext y
  show V m c main_arg11 (((cfg0.win 11).blk t).view.emb y) = m ((c : Thread nD τ).loc main_arg11) y
  refine congrArg (m ((c : Thread nD τ).loc main_arg11)) (funext fun a => Fin.ext ?_)
  match a with
  | ⟨0, _⟩ => show win0_11.index t (0 : Fin 1) * 10 + 1 * (y 0).val = (y 0).val; omega
theorem whole_12 (c : Dev nD) (t : Fin cfg0.N) : iblk m c 12 t = m ((c : Thread nD τ).loc main_arg12) := by
  have e0 := idx_12 t
  funext y
  show V m c main_arg12 (((cfg0.win 12).blk t).view.emb y) = m ((c : Thread nD τ).loc main_arg12) y
  refine congrArg (m ((c : Thread nD τ).loc main_arg12)) (funext fun a => Fin.ext ?_)
  match a with
  | ⟨0, _⟩ => show win0_12.index t (0 : Fin 1) * 10 + 1 * (y 0).val = (y 0).val; omega

/-! ## A noise tensor's block is the sample's slab -/

theorem slab_13 (c : Dev nD) (t : Fin cfg0.N) (i : Fin 784) (o : Fin 1024) :
    iblk m c 13 t (ix3 (0 : Fin 1) i o) = m ((c : Thread nD τ).loc main_arg13) (ix3 (smp t) i o) := by
  obtain ⟨e0, e1, e2⟩ := idx_13 t
  show V m c main_arg13 (((cfg0.win 13).blk t).view.emb (ix3 (0 : Fin 1) i o)) = _
  refine congrArg (m ((c : Thread nD τ).loc main_arg13)) (funext fun a => Fin.ext ?_)
  match a with
  | ⟨0, _⟩ => show win0_13.index t (0 : Fin 3) * 1 + 1 * 0 = t.val; omega
  | ⟨1, _⟩ => show win0_13.index t (1 : Fin 3) * 784 + 1 * i.val = i.val; omega
  | ⟨2, _⟩ => show win0_13.index t (2 : Fin 3) * 1024 + 1 * o.val = o.val; omega
theorem slab_14 (c : Dev nD) (t : Fin cfg0.N) (o : Fin 1024) :
    iblk m c 14 t (ix3 (0 : Fin 1) (0 : Fin 1) o) = m ((c : Thread nD τ).loc main_arg14) (ix3 (smp t) (0 : Fin 1) o) := by
  obtain ⟨e0, e1, e2⟩ := idx_14 t
  show V m c main_arg14 (((cfg0.win 14).blk t).view.emb (ix3 (0 : Fin 1) (0 : Fin 1) o)) = _
  refine congrArg (m ((c : Thread nD τ).loc main_arg14)) (funext fun a => Fin.ext ?_)
  match a with
  | ⟨0, _⟩ => show win0_14.index t (0 : Fin 3) * 1 + 1 * 0 = t.val; omega
  | ⟨1, _⟩ => show win0_14.index t (1 : Fin 3) * 1 + 1 * 0 = 0; omega
  | ⟨2, _⟩ => show win0_14.index t (2 : Fin 3) * 1024 + 1 * o.val = o.val; omega
theorem slab_15 (c : Dev nD) (t : Fin cfg0.N) (i : Fin 1024) (o : Fin 1024) :
    iblk m c 15 t (ix3 (0 : Fin 1) i o) = m ((c : Thread nD τ).loc main_arg15) (ix3 (smp t) i o) := by
  obtain ⟨e0, e1, e2⟩ := idx_15 t
  show V m c main_arg15 (((cfg0.win 15).blk t).view.emb (ix3 (0 : Fin 1) i o)) = _
  refine congrArg (m ((c : Thread nD τ).loc main_arg15)) (funext fun a => Fin.ext ?_)
  match a with
  | ⟨0, _⟩ => show win0_15.index t (0 : Fin 3) * 1 + 1 * 0 = t.val; omega
  | ⟨1, _⟩ => show win0_15.index t (1 : Fin 3) * 1024 + 1 * i.val = i.val; omega
  | ⟨2, _⟩ => show win0_15.index t (2 : Fin 3) * 1024 + 1 * o.val = o.val; omega
theorem slab_16 (c : Dev nD) (t : Fin cfg0.N) (o : Fin 1024) :
    iblk m c 16 t (ix3 (0 : Fin 1) (0 : Fin 1) o) = m ((c : Thread nD τ).loc main_arg16) (ix3 (smp t) (0 : Fin 1) o) := by
  obtain ⟨e0, e1, e2⟩ := idx_16 t
  show V m c main_arg16 (((cfg0.win 16).blk t).view.emb (ix3 (0 : Fin 1) (0 : Fin 1) o)) = _
  refine congrArg (m ((c : Thread nD τ).loc main_arg16)) (funext fun a => Fin.ext ?_)
  match a with
  | ⟨0, _⟩ => show win0_16.index t (0 : Fin 3) * 1 + 1 * 0 = t.val; omega
  | ⟨1, _⟩ => show win0_16.index t (1 : Fin 3) * 1 + 1 * 0 = 0; omega
  | ⟨2, _⟩ => show win0_16.index t (2 : Fin 3) * 1024 + 1 * o.val = o.val; omega
theorem slab_17 (c : Dev nD) (t : Fin cfg0.N) (i : Fin 1024) (o : Fin 10) :
    iblk m c 17 t (ix3 (0 : Fin 1) i o) = m ((c : Thread nD τ).loc main_arg17) (ix3 (smp t) i o) := by
  obtain ⟨e0, e1, e2⟩ := idx_17 t
  show V m c main_arg17 (((cfg0.win 17).blk t).view.emb (ix3 (0 : Fin 1) i o)) = _
  refine congrArg (m ((c : Thread nD τ).loc main_arg17)) (funext fun a => Fin.ext ?_)
  match a with
  | ⟨0, _⟩ => show win0_17.index t (0 : Fin 3) * 1 + 1 * 0 = t.val; omega
  | ⟨1, _⟩ => show win0_17.index t (1 : Fin 3) * 1024 + 1 * i.val = i.val; omega
  | ⟨2, _⟩ => show win0_17.index t (2 : Fin 3) * 10 + 1 * o.val = o.val; omega
theorem slab_18 (c : Dev nD) (t : Fin cfg0.N) (o : Fin 10) :
    iblk m c 18 t (ix3 (0 : Fin 1) (0 : Fin 1) o) = m ((c : Thread nD τ).loc main_arg18) (ix3 (smp t) (0 : Fin 1) o) := by
  obtain ⟨e0, e1, e2⟩ := idx_18 t
  show V m c main_arg18 (((cfg0.win 18).blk t).view.emb (ix3 (0 : Fin 1) (0 : Fin 1) o)) = _
  refine congrArg (m ((c : Thread nD τ).loc main_arg18)) (funext fun a => Fin.ext ?_)
  match a with
  | ⟨0, _⟩ => show win0_18.index t (0 : Fin 3) * 1 + 1 * 0 = t.val; omega
  | ⟨1, _⟩ => show win0_18.index t (1 : Fin 3) * 1 + 1 * 0 = 0; omega
  | ⟨2, _⟩ => show win0_18.index t (2 : Fin 3) * 10 + 1 * o.val = o.val; omega

/-! ## What a point writes back, and the array after the run -/

/-- Entry `(0, p, q)` of the output block of point `t` sits at `(t, p, q)` of the result array. -/
theorem out_at (t : Fin cfg0.N) (p : Fin 1024) (q : Fin 10) :
    ((cfg0.win 19).blk t).view.emb (ix3 (0 : Fin 1) p q) = ix3 (smp t) p q := by
  obtain ⟨e0, e1, e2⟩ := idx_19 t
  funext a; apply Fin.ext
  match a with
  | ⟨0, _⟩ => show win0_19.index t (0 : Fin 3) * 1 + 1 * 0 = t.val; omega
  | ⟨1, _⟩ => show win0_19.index t (1 : Fin 3) * 1024 + 1 * p.val = p.val; omega
  | ⟨2, _⟩ => show win0_19.index t (2 : Fin 3) * 10 + 1 * q.val = q.val; omega

/-- WHAT POINT `t` WRITES BACK is block `t` of the specification's result of the argument arrays. -/
theorem flushed_eq (c : Dev nD) (t : Fin cfg0.N) :
    (dats m 0 c).flushed 19 t = ((cfg0.win 19).blk t).view.read (Elt Ideal) (spec m c) := by
  rw [Cert.KernelIdeal.Value.flushed19_A, block_eq]
  funext (y : S1x1024x10.Idx)
  obtain ⟨u, p, q, rfl⟩ : ∃ (u : Fin 1) (p : Fin 1024) (q : Fin 10), y = ix3 u p q := ⟨y 0, y 1, y 2, eq_ix3 y⟩
  obtain rfl : u = 0 := Subsingleton.elim _ _
  show k0_pay1 (F := Ideal) (k0_pay5 (iblk m c 17 t) (iblk m c 10 t)) (iblk m c 9 t) (iblk m c 18 t) (iblk m c 12 t) (iblk m c 11 t)
      (act1 (iblk m c 0 t) (iblk m c 1 t) (iblk m c 2 t) (iblk m c 3 t) (iblk m c 4 t) (iblk m c 5 t) (iblk m c 6 t) (iblk m c 7 t) (iblk m c 8 t) (iblk m c 13 t) (iblk m c 14 t) (iblk m c 15 t) (iblk m c 16 t))
      (ix3 (0 : Fin 1) p q)
    = spec m c (((cfg0.win 19).blk t).view.emb (ix3 (0 : Fin 1) p q))
  rw [out_at]
  exact point_value_at (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
    (smp t) (whole_0 m c t) (whole_1 m c t) (whole_2 m c t) (whole_3 m c t) (whole_4 m c t) (whole_5 m c t) (whole_6 m c t) (whole_7 m c t) (whole_8 m c t) (whole_9 m c t) (whole_10 m c t) (whole_11 m c t) (whole_12 m c t)
    (slab_13 m c t) (slab_14 m c t) (slab_15 m c t) (slab_16 m c t) (slab_17 m c t) (slab_18 m c t) p q

/-- An index of the result array is in point `t`'s block iff each coordinate is in the block's range on its axis. -/
theorem mem_blk (t : Fin cfg0.N) (i : S32x1024x10.Idx) :
    i ∈ ((cfg0.win 19).blk t).view.set ↔ ∀ a : Fin 3, win0_19.index t a * S1x1024x10.size a ≤ (i a).val ∧ (i a).val < win0_19.index t a * S1x1024x10.size a + S1x1024x10.size a := by
  show i ∈ ((View.whole main_v0).slice (win0_19.rect t)).set ↔ _
  rw [View.set_slice_whole, Rect.mem_set_unit]
  exact Iff.rfl

/-- Every index `(s, r, o)` of the result array lies in the block of point `s`. -/
theorem covered (i : S32x1024x10.Idx) :
    ∃ t : Fin cfg0.N, (cfg0.win 19).flush t = true ∧ i ∈ ((cfg0.win 19).blk t).view.set := by
  have h0 : (i 0).val < 32 := (i 0).isLt
  have h1 : (i 1).val < 1024 := (i 1).isLt
  have h2 : (i 2).val < 10 := (i 2).isLt
  obtain ⟨t, ht⟩ : ∃ t : Fin cfg0.N, t.val = (i 0).val := ⟨⟨(i 0).val, by rw [points]; exact h0⟩, rfl⟩
  refine ⟨t, flush0_19 t, ?_⟩
  rw [mem_blk]
  obtain ⟨e0, e1, e2⟩ := idx_19 t
  intro a
  match a with
  | ⟨0, _⟩ => show win0_19.index t (0 : Fin 3) * 1 ≤ (i 0).val ∧ (i 0).val < win0_19.index t (0 : Fin 3) * 1 + 1; omega
  | ⟨1, _⟩ => show win0_19.index t (1 : Fin 3) * 1024 ≤ (i 1).val ∧ (i 1).val < win0_19.index t (1 : Fin 3) * 1024 + 1024; omega
  | ⟨2, _⟩ => show win0_19.index t (2 : Fin 3) * 10 ≤ (i 2).val ∧ (i 2).val < win0_19.index t (2 : Fin 3) * 10 + 10; omega

/-- THE ARRAY after the run is the specification's result of the argument arrays. -/
theorem final (c : Dev nD) : (dats m 0 c).arrAt 19 cfg0.N = spec m c :=
  (dats m 0 c).arrAt_eq_of_cover 19 (spec m c) (fun t _ => flushed_eq m c t) covered

/-- The kernel's run, read: the result array at the specification's result, the arguments unchanged. -/
theorem run : θ_run defs (onTc (τ := τ) (main (F := Ideal))) ⟨m, fun _ => 0, ρ⟩ fun r => ∀ c : Dev nD,
      r.2.mem ((c : Thread nD τ).loc main_v0) = spec m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c).1.trans (final m c), (h c).2⟩) (Cert.KernelIdeal.Value.run_blocks m ρ)

end Cert.Bnn.Kernel

end
-- ==== Proof.RefValue.lean ====
/-
  The reference program computes `Cert.Bnn.result`.

  Its last stage, read one operation at a time: every broadcast only repeats a shared tensor along the sample
  axis (or a bias along the row axis), each batched `dot_general` is, for sample `s`, row `r`, feature `o`, the
  sum over the contracted feature `i` of activation `[s,r,i]` times weight `[s,i,o]`, and `@relu` is `max(·, 0)`.
  So index by index the stage is the three nested affine layers of the specification.
-/
import proofs.«110567_j36532991820264_1_alg».proof.Proof.Gen.ReferenceIdeal.Read
import proofs.«110567_j36532991820264_1_alg».proof.Proof.Spec

noncomputable section

open scoped BigOperators

namespace Cert.Bnn.Ref

open Cert.ReferenceIdeal Cert.ReferenceIdeal.Gen Cert.ReferenceIdeal.Read
open Idealize.ShloMosaic Idealize.ShloMosaic.TcCoe Idealize.ShloMosaic.ValueIdx

section stages

variable (x0 : (⟨S1024x784, .f32⟩ : BufTy).Contents (Elt Ideal)) (x1 x2 : (⟨S784x1024, .f32⟩ : BufTy).Contents (Elt Ideal))
  (x3 x4 : (⟨S1024, .f32⟩ : BufTy).Contents (Elt Ideal)) (x5 x6 : (⟨S1024x1024, .f32⟩ : BufTy).Contents (Elt Ideal))
  (x7 x8 : (⟨S1024, .f32⟩ : BufTy).Contents (Elt Ideal)) (x9 x10 : (⟨S1024x10, .f32⟩ : BufTy).Contents (Elt Ideal))
  (x11 x12 : (⟨S10, .f32⟩ : BufTy).Contents (Elt Ideal)) (x13 : (⟨S32x784x1024, .f32⟩ : BufTy).Contents (Elt Ideal))
  (x14 : (⟨S32x1x1024, .f32⟩ : BufTy).Contents (Elt Ideal)) (x15 : (⟨S32x1024x1024, .f32⟩ : BufTy).Contents (Elt Ideal))
  (x16 : (⟨S32x1x1024, .f32⟩ : BufTy).Contents (Elt Ideal)) (x17 : (⟨S32x1024x10, .f32⟩ : BufTy).Contents (Elt Ideal))
  (x18 : (⟨S32x1x10, .f32⟩ : BufTy).Contents (Elt Ideal))

/-- The input repeated along the sample axis: sample `s`, row `r`, feature `i` reads `x[r,i]`. -/
theorem input_at (s : Fin 32) (r : Fin 1024) (i : Fin 784) :
    val_main_v1 (F := Ideal) x0 (ix3 s r i) = x0 (ix2 r i) := by
  rw [val_main_v1_apply, val_main_v0_apply]
  exact congrArg x0 (funext fun a => match a with | ⟨0, _⟩ => rfl | ⟨1, _⟩ => rfl)

/-- The first layer's sampled weight: the shared log-variance and mean are read at `[i,o]`, the noise at `[s,i,o]`. -/
theorem weight0_at (s : Fin 32) (i : Fin 784) (o : Fin 1024) :
    val_main_v10 (F := Ideal) x1 x2 x13 (ix3 s i o) = Cert.Bnn.weight x13 x2 x1 s i o := by
  rw [val_main_v10_apply, val_main_v7_apply, val_main_v6_apply, val_main_v5_apply, val_main_v4_apply,
    val_main_v3_apply, val_main_v2_apply, val_main_cst_apply, val_main_v9_apply, val_main_v8_apply]
  have e : idx_main_v5 (idx_main_v6 (ix3 s i o)) = ix2 i o :=
    funext fun a => match a with | ⟨0, _⟩ => rfl | ⟨1, _⟩ => rfl
  have e' : idx_main_v8 (idx_main_v9 (ix3 s i o)) = ix2 i o :=
    funext fun a => match a with | ⟨0, _⟩ => rfl | ⟨1, _⟩ => rfl
  rw [e, e']
  rfl

/-- The first layer's sampled bias: the shared log-variance and mean are read at `[o]`, the noise at `[s,0,o]`. -/
theorem bias0_at (s : Fin 32) (o : Fin 1024) :
    val_main_v19 (F := Ideal) x3 x4 x14 (ix3 s 0 o) = Cert.Bnn.bias x14 x4 x3 s o := by
  rw [val_main_v19_apply, val_main_v16_apply, val_main_v15_apply, val_main_v14_apply, val_main_v13_apply,
    val_main_v12_apply, val_main_v11_apply, val_main_cst_0_apply, val_main_v18_apply, val_main_v17_apply]
  have e : idx_main_v14 (idx_main_v15 (ix3 s 0 o)) = ix1 o :=
    funext fun a => match a with | ⟨0, _⟩ => rfl
  have e' : idx_main_v17 (idx_main_v18 (ix3 s 0 o)) = ix1 o :=
    funext fun a => match a with | ⟨0, _⟩ => rfl
  rw [e, e']
  rfl

/-- The second layer's sampled weight. -/
theorem weight1_at (s : Fin 32) (i : Fin 1024) (o : Fin 1024) :
    val_main_v32 (F := Ideal) x5 x6 x15 (ix3 s i o) = Cert.Bnn.weight x15 x6 x5 s i o := by
  rw [val_main_v32_apply, val_main_v29_apply, val_main_v28_apply, val_main_v27_apply, val_main_v26_apply,
    val_main_v25_apply, val_main_v24_apply, val_main_cst_1_apply, val_main_v31_apply, val_main_v30_apply]
  have e : idx_main_v27 (idx_main_v28 (ix3 s i o)) = ix2 i o :=
    funext fun a => match a with | ⟨0, _⟩ => rfl | ⟨1, _⟩ => rfl
  have e' : idx_main_v30 (idx_main_v31 (ix3 s i o)) = ix2 i o :=
    funext fun a => match a with | ⟨0, _⟩ => rfl | ⟨1, _⟩ => rfl
  rw [e, e']
  rfl

/-- The second layer's sampled bias. -/
theorem bias1_at (s : Fin 32) (o : Fin 1024) :
    val_main_v41 (F := Ideal) x7 x8 x16 (ix3 s 0 o) = Cert.Bnn.bias x16 x8 x7 s o := by
  rw [val_main_v41_apply, val_main_v38_apply, val_main_v37_apply, val_main_v36_apply, val_main_v35_apply,
    val_main_v34_apply, val_main_v33_apply, val_main_cst_2_apply, val_main_v40_apply, val_main_v39_apply]
  have e : idx_main_v36 (idx_main_v37 (ix3 s 0 o)) = ix1 o :=
    funext fun a => match a with | ⟨0, _⟩ => rfl
  have e' : idx_main_v39 (idx_main_v40 (ix3 s 0 o)) = ix1 o :=
    funext fun a => match a with | ⟨0, _⟩ => rfl
  rw [e, e']
  rfl

/-- The last layer's sampled weight. -/
theorem weightL_at (s : Fin 32) (i : Fin 1024) (o : Fin 10) :
    val_main_v54 (F := Ideal) x9 x10 x17 (ix3 s i o) = Cert.Bnn.weight x17 x10 x9 s i o := by
  rw [val_main_v54_apply, val_main_v51_apply, val_main_v50_apply, val_main_v49_apply, val_main_v48_apply,
    val_main_v47_apply, val_main_v46_apply, val_main_cst_3_apply, val_main_v53_apply, val_main_v52_apply]
  have e : idx_main_v49 (idx_main_v50 (ix3 s i o)) = ix2 i o :=
    funext fun a => match a with | ⟨0, _⟩ => rfl | ⟨1, _⟩ => rfl
  have e' : idx_main_v52 (idx_main_v53 (ix3 s i o)) = ix2 i o :=
    funext fun a => match a with | ⟨0, _⟩ => rfl | ⟨1, _⟩ => rfl
  rw [e, e']
  rfl

/-- The last layer's sampled bias. -/
theorem biasL_at (s : Fin 32) (o : Fin 10) :
    val_main_v63 (F := Ideal) x11 x12 x18 (ix3 s 0 o) = Cert.Bnn.bias x18 x12 x11 s o := by
  rw [val_main_v63_apply, val_main_v60_apply, val_main_v59_apply, val_main_v58_apply, val_main_v57_apply,
    val_main_v56_apply, val_main_v55_apply, val_main_cst_4_apply, val_main_v62_apply, val_main_v61_apply]
  have e : idx_main_v58 (idx_main_v59 (ix3 s 0 o)) = ix1 o :=
    funext fun a => match a with | ⟨0, _⟩ => rfl
  have e' : idx_main_v61 (idx_main_v62 (ix3 s 0 o)) = ix1 o :=
    funext fun a => match a with | ⟨0, _⟩ => rfl
  rw [e, e']
  rfl

/-- The first clamped layer: the contraction runs over the input feature, the bias row is repeated over the rows. -/
theorem hidden0_at (s : Fin 32) (r o : Fin 1024) :
    val_main_v23 (F := Ideal) x0 x1 x2 x3 x4 x13 x14 (ix3 s r o) = Cert.Bnn.hidden0 x0 x1 x2 x3 x4 x13 x14 s r o := by
  rw [val_main_v23_apply, val_main_v22_apply, val_main_v20_apply, val_main_v21_apply, val_main_call0_v0_apply,
    val_main_call0_cst_apply]
  have eb : idx_main_v21 (ix3 s r o) = ix3 s 0 o :=
    funext fun a => match a with | ⟨0, _⟩ => rfl | ⟨1, _⟩ => rfl | ⟨2, _⟩ => rfl
  have hsum : (∑ k : Fin 784, val_main_v1 (F := Ideal) x0 (lidx_main_v20 (ix3 s r o) k)
        * val_main_v10 (F := Ideal) x1 x2 x13 (ridx_main_v20 (ix3 s r o) k))
      = ∑ k : Fin 784, x0 (ix2 r k) * Cert.Bnn.weight x13 x2 x1 s k o :=
    Finset.sum_congr rfl fun k _ => by
      have el : lidx_main_v20 (ix3 s r o) k = ix3 s r k :=
        funext fun a => match a with | ⟨0, _⟩ => rfl | ⟨1, _⟩ => rfl | ⟨2, _⟩ => rfl
      have er : ridx_main_v20 (ix3 s r o) k = ix3 s k o :=
        funext fun a => match a with | ⟨0, _⟩ => rfl | ⟨1, _⟩ => rfl | ⟨2, _⟩ => rfl
      rw [el, er, input_at, weight0_at]
  rw [hsum, eb, bias0_at]
  rfl

/-- The second clamped layer, over the first. -/
theorem hidden1_at (s : Fin 32) (r o : Fin 1024) :
    val_main_v45 (F := Ideal) x0 x1 x2 x3 x4 x5 x6 x7 x8 x13 x14 x15 x16 (ix3 s r o) = Cert.Bnn.hidden1 x0 x1 x2 x3 x4 x5 x6 x7 x8 x13 x14 x15 x16 s r o := by
  rw [val_main_v45_apply, val_main_v44_apply, val_main_v42_apply, val_main_v43_apply, val_main_call1_v0_apply,
    val_main_call1_cst_apply]
  have eb : idx_main_v43 (ix3 s r o) = ix3 s 0 o :=
    funext fun a => match a with | ⟨0, _⟩ => rfl | ⟨1, _⟩ => rfl | ⟨2, _⟩ => rfl
  have hsum : (∑ k : Fin 1024, val_main_v23 (F := Ideal) x0 x1 x2 x3 x4 x13 x14 (lidx_main_v42 (ix3 s r o) k)
        * val_main_v32 (F := Ideal) x5 x6 x15 (ridx_main_v42 (ix3 s r o) k))
      = ∑ k : Fin 1024, Cert.Bnn.hidden0 x0 x1 x2 x3 x4 x13 x14 s r k * Cert.Bnn.weight x15 x6 x5 s k o :=
    Finset.sum_congr rfl fun k _ => by
      have el : lidx_main_v42 (ix3 s r o) k = ix3 s r k :=
        funext fun a => match a with | ⟨0, _⟩ => rfl | ⟨1, _⟩ => rfl | ⟨2, _⟩ => rfl
      have er : ridx_main_v42 (ix3 s r o) k = ix3 s k o :=
        funext fun a => match a with | ⟨0, _⟩ => rfl | ⟨1, _⟩ => rfl | ⟨2, _⟩ => rfl
      rw [el, er, hidden0_at, weight1_at]
  rw [hsum, eb, bias1_at]
  rfl

/-- The last layer (no clamp), over the second. -/
theorem logits_at (s : Fin 32) (r : Fin 1024) (o : Fin 10) :
    val_main_v66 (F := Ideal) x0 x1 x2 x3 x4 x5 x6 x7 x8 x9 x10 x11 x12 x13 x14 x15 x16 x17 x18 (ix3 s r o)
      = Cert.Bnn.logits x0 x1 x2 x3 x4 x5 x6 x7 x8 x9 x10 x11 x12 x13 x14 x15 x16 x17 x18 s r o := by
  rw [val_main_v66_apply, val_main_v64_apply, val_main_v65_apply]
  have eb : idx_main_v65 (ix3 s r o) = ix3 s 0 o :=
    funext fun a => match a with | ⟨0, _⟩ => rfl | ⟨1, _⟩ => rfl | ⟨2, _⟩ => rfl
  have hsum : (∑ k : Fin 1024, val_main_v45 (F := Ideal) x0 x1 x2 x3 x4 x5 x6 x7 x8 x13 x14 x15 x16 (lidx_main_v64 (ix3 s r o) k)
        * val_main_v54 (F := Ideal) x9 x10 x17 (ridx_main_v64 (ix3 s r o) k))
      = ∑ k : Fin 1024, Cert.Bnn.hidden1 x0 x1 x2 x3 x4 x5 x6 x7 x8 x13 x14 x15 x16 s r k * Cert.Bnn.weight x17 x10 x9 s k o :=
    Finset.sum_congr rfl fun k _ => by
      have el : lidx_main_v64 (ix3 s r o) k = ix3 s r k :=
        funext fun a => match a with | ⟨0, _⟩ => rfl | ⟨1, _⟩ => rfl | ⟨2, _⟩ => rfl
      have er : ridx_main_v64 (ix3 s r o) k = ix3 s k o :=
        funext fun a => match a with | ⟨0, _⟩ => rfl | ⟨1, _⟩ => rfl | ⟨2, _⟩ => rfl
      rw [el, er, hidden1_at, weightL_at]
  rw [hsum, eb, biasL_at]
  rfl

end stages

/-- The reference's result stage is the specification's `result` of the nineteen argument arrays
    (`x, wm0, wv0, bm0, bv0, wm1, wv1, bm1, bv1, wlm, wlv, blm, blv, we0, be0, we1, be1, wel, bel`, in @main's order). -/
theorem ref_result
    (x0 : (⟨S1024x784, .f32⟩ : BufTy).Contents (Elt Ideal)) (x1 x2 : (⟨S784x1024, .f32⟩ : BufTy).Contents (Elt Ideal))
    (x3 x4 : (⟨S1024, .f32⟩ : BufTy).Contents (Elt Ideal)) (x5 x6 : (⟨S1024x1024, .f32⟩ : BufTy).Contents (Elt Ideal))
    (x7 x8 : (⟨S1024, .f32⟩ : BufTy).Contents (Elt Ideal)) (x9 x10 : (⟨S1024x10, .f32⟩ : BufTy).Contents (Elt Ideal))
    (x11 x12 : (⟨S10, .f32⟩ : BufTy).Contents (Elt Ideal)) (x13 : (⟨S32x784x1024, .f32⟩ : BufTy).Contents (Elt Ideal))
    (x14 : (⟨S32x1x1024, .f32⟩ : BufTy).Contents (Elt Ideal)) (x15 : (⟨S32x1024x1024, .f32⟩ : BufTy).Contents (Elt Ideal))
    (x16 : (⟨S32x1x1024, .f32⟩ : BufTy).Contents (Elt Ideal)) (x17 : (⟨S32x1024x10, .f32⟩ : BufTy).Contents (Elt Ideal))
    (x18 : (⟨S32x1x10, .f32⟩ : BufTy).Contents (Elt Ideal)) :
    val_main_v66 (F := Ideal) x0 x1 x2 x3 x4 x5 x6 x7 x8 x9 x10 x11 x12 x13 x14 x15 x16 x17 x18
      = Cert.Bnn.result x0 x1 x2 x3 x4 x5 x6 x7 x8 x9 x10 x11 x12 x13 x14 x15 x16 x17 x18 := by
  refine funext fun j => ?_
  obtain ⟨s, r, o, rfl⟩ : ∃ s r o, j = ix3 s r o := ⟨j 0, j 1, j 2, eq_ix3 j⟩
  exact logits_at x0 x1 x2 x3 x4 x5 x6 x7 x8 x9 x10 x11 x12 x13 x14 x15 x16 x17 x18 s r o

end Cert.Bnn.Ref

end
-- ==== Proof.lean ====
/-
  A Bayesian three-layer perceptron, evaluated for 32 weight samples at once, against its plain array-language
  reference.

  For sample `s` each weight is `noise[s] · exp(½ · logvar) + mean`; a layer is `a ↦ a · W + b`, the two hidden
  layers followed by `max(·, 0)`.  The kernel runs one grid point per sample and keeps the hidden activations in a
  scratch block; the reference broadcasts the shared tensors along the sample axis and uses batched matrix products.
  Over the extended reals both compute the same nested sums (`Cert.Bnn.result`, Proof/Spec.lean): the kernel
  because the block each grid point writes back is slab `s` of that function of the argument arrays and the 32
  slabs tile the result (Proof/Block.lean, Proof/Payload.lean, Proof/Point.lean, Proof/Final.lean), the reference
  operation by operation (Proof/RefValue.lean).  No algebraic law beyond reading both programs index by index is
  needed, so the finiteness of the inputs is never used.  The idealization rewrote nothing, so `preserves` is
  trivial.
-/
import proofs.«110567_j36532991820264_1_alg».proof.Defs
import proofs.«110567_j36532991820264_1_alg».proof.Proof.Gen.Kernel
import proofs.«110567_j36532991820264_1_alg».proof.Proof.Gen.Kernel.Skeleton
import proofs.«110567_j36532991820264_1_alg».proof.Proof.Gen.Kernel.Launch
import proofs.«110567_j36532991820264_1_alg».proof.Proof.Gen.Kernel.Points
import proofs.«110567_j36532991820264_1_alg».proof.Proof.Gen.Kernel.Frame
import proofs.«110567_j36532991820264_1_alg».proof.Proof.Gen.KernelIdeal
import proofs.«110567_j36532991820264_1_alg».proof.Proof.Gen.KernelIdeal.Skeleton
import proofs.«110567_j36532991820264_1_alg».proof.Proof.Gen.KernelIdeal.Launch
import proofs.«110567_j36532991820264_1_alg».proof.Proof.Gen.KernelIdeal.Points
import proofs.«110567_j36532991820264_1_alg».proof.Proof.Gen.KernelIdeal.Frame
import proofs.«110567_j36532991820264_1_alg».proof.Proof.Gen.ReferenceIdeal
import proofs.«110567_j36532991820264_1_alg».proof.Proof.Gen.Pre_finite_inputs
import proofs.«110567_j36532991820264_1_alg».proof.Proof.Gen.KernelIdeal.Value
import proofs.«110567_j36532991820264_1_alg».proof.Proof.Gen.ReferenceIdeal.Run
import proofs.«110567_j36532991820264_1_alg».proof.Proof.Gen.ReferenceIdeal.Read
import proofs.«110567_j36532991820264_1_alg».proof.Proof.Final
import proofs.«110567_j36532991820264_1_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments as they were. -/
theorem frame_kernel [Cert.Kernel.Facts] [Cert.Pre_finite_inputs.Facts] : Cert.frame_Kernel :=
  fun m ρ _ => Cert.Kernel.Gen.frame m ρ

/-- So does the kernel read over the extended reals. -/
theorem frame_kernelIdeal [Cert.KernelIdeal.Facts] [Cert.Pre_finite_inputs.Facts] : Cert.frame_KernelIdeal :=
  fun m ρ _ => Cert.KernelIdeal.Gen.frame m ρ

/-- The reference is straight-line array code: its run, with the result forgotten. -/
theorem frame_referenceIdeal [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both programs, from memories that agree on the nineteen arguments, end with the result array at the
    specification's `result` of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.Bnn.Kernel.spec m c, Cert.Bnn.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18⟩ := hagree c
  rw [Cert.ReferenceIdeal.Read.val_main_v66_eq, Cert.Bnn.Ref.ref_result,
    a0, a1, a2, a3, a4, a5, a6, a7, a8, a9, a10, a11, a12, a13, a14, a15, a16, a17, a18]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
